-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048 : Shape := ⟨2, ![4, 2048]⟩
abbrev S2048 : Shape := ⟨1, ![2048]⟩
abbrev S6144x2048 : Shape := ⟨2, ![6144, 2048]⟩
abbrev S6144 : Shape := ⟨1, ![6144]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_

variable [Facts]

def fn_part2 {F : FTy → Type} [FloatOps F] (main_arg7 : FVec F S6144 .f32) (main_v33 : IVec S_ 1) : IVec S_ 1 :=
  let main_v34 : FVec F S6144 .f32 := Host.absf main_arg7
  let main_cst_12 : FVec F S_ .f32 := constant S_ .f32 0x7F800000#32
  let main_v35 : FVec F S6144 .f32 := broadcastInDim S6144 ![] bcast_S_S6144 main_cst_12
  let main_v36 : IVec S6144 1 := cmpf .olt main_v34 main_v35
  let main_c_13 : IVec S_ 1 := constantI S_ 1 1#1
  let main_v37 : IVec S_ 1 := (fun x v => Host.reduce IntOp.andi x v reducesTo_S6144_S_d0 h_S_) main_v36 main_c_13
  let main_v38 : IVec S_ 1 := andi main_v33 main_v37
  main_v38

def fn_part1 {F : FTy → Type} [FloatOps F] (main_arg4 : FVec F S2048 .f32) (main_arg5 : FVec F S2048 .f32) (main_arg6 : FVec F S6144x2048 .f32) (main_arg7 : FVec F S6144 .f32) (main_v13 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S6144x2048 .f32 := Host.absf main_arg6
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg7 main_v33

def fn {F : FTy → Type} [FloatOps F] (main_arg0 : FVec F S4x4096x2048 .f32) (main_arg1 : FVec F S4x4096x2048 .f32) (main_arg2 : FVec F S4x2048 .f32) (main_arg3 : FVec F S4x2048 .f32) (main_arg4 : FVec F S2048 .f32) (main_arg5 : FVec F S2048 .f32) (main_arg6 : FVec F S6144x2048 .f32) (main_arg7 : FVec F S6144 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S4x2048 .f32 := Host.absf main_arg3
  let main_cst_4 : FVec F S_ .f32 := constant S_ .f32 0x7F800000#32
  let main_v15 : FVec F S4x2048 .f32 := broadcastInDim S4x2048 ![] bcast_S_S4x2048 main_cst_4
  let main_v16 : IVec S4x2048 1 := cmpf .olt main_v14 main_v15
  fn_part1 (F := F) main_arg4 main_arg5 main_arg6 main_arg7 main_v13 main_v16
-- ==== Kernel.lean ====
abbrev S4x4096x2048 : Shape := ⟨3, ![4, 4096, 2048]⟩
abbrev S4x2048 : Shape := ⟨2, ![4, 2048]⟩
abbrev S2048 : Shape := ⟨1, ![2048]⟩
abbrev S6144x2048 : Shape := ⟨2, ![6144, 2048]⟩
abbrev S6144 : Shape := ⟨1, ![6144]⟩
abbrev S4x1x2048 : Shape := ⟨3, ![4, 1, 2048]⟩
abbrev S1x2048 : Shape := ⟨2, ![1, 2048]⟩
abbrev S1x6144 : Shape := ⟨2, ![1, 6144]⟩
abbrev S1x64x2048 : Shape := ⟨3, ![1, 64, 2048]⟩
abbrev S1x1x2048 : Shape := ⟨3, ![1, 1, 2048]⟩
abbrev S64x2048 : Shape := ⟨2, ![64, 2048]⟩
abbrev S64 : Shape := ⟨1, ![64]⟩
abbrev S64x1 : Shape := ⟨2, ![64, 1]⟩
abbrev S64x6144 : Shape := ⟨2, ![64, 6144]⟩

abbrev nBuf : Space → Nat
  | .hbm => 16
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S6144x2048, .f32⟩
  | .hbm, ⟨7, _⟩ => ⟨S6144, .f32⟩
  | .hbm, ⟨8, _⟩ => ⟨S4x1x2048, .f32⟩
  | .hbm, ⟨9, _⟩ => ⟨S4x1x2048, .f32⟩
  | .hbm, ⟨10, _⟩ => ⟨S1x2048, .f32⟩
  | .hbm, ⟨11, _⟩ => ⟨S1x2048, .f32⟩
  | .hbm, ⟨12, _⟩ => ⟨S1x6144, .f32⟩
  | .hbm, ⟨13, _⟩ => ⟨S6144x2048, .bf16⟩
  | .hbm, ⟨14, _⟩ => ⟨S4x4096x2048, .f32⟩
  | .hbm, ⟨15, _⟩ => ⟨S4x4096x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S6144x2048, .bf16⟩
  | .local _ .vmem, ⟨11, _⟩ => ⟨S1x6144, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6144x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S4x2048_S4x1x2048 : S4x2048.ShapeCasts S4x1x2048
  shapeCasts_S2048_S1x2048 : S2048.ShapeCasts S1x2048
  shapeCasts_S6144_S1x6144 : S6144.ShapeCasts S1x6144
  bitsLt_bf16_f32 : FTy.bits .bf16 < FTy.bits .f32
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  inb_S6144x2048_S6144x2048_0_0 : ∀ a, (![0, 0] : Fin 2 → Nat) a + S6144x2048.size a ≤ S6144x2048.size a
  h_S6144x2048 : 0 < S6144x2048.numel
  shapeCasts_S6144x2048_S6144x2048 : S6144x2048.ShapeCasts S6144x2048
  reduces_S64x2048_S64 : S64x2048.Reduces [1] S64
  shapeCasts_S64_S64x1 : S64.ShapeCasts S64x1
  broadcasts_S64x1_S64x2048 : S64x1.Broadcasts S64x2048
  broadcasts_S1x2048_S64x2048 : S1x2048.Broadcasts S64x2048
  broadcasts_S1x6144_S64x6144 : S1x6144.Broadcasts S64x6144
  slices_S64x6144_o0_0_S64x2048 : S64x6144.Slices ![0, 0] S64x2048
  slices_S64x6144_o0_2048_S64x2048 : S64x6144.Slices ![0, 2048] S64x2048
  slices_S64x6144_o0_4096_S64x2048 : S64x6144.Slices ![0, 4096] S64x2048
  shapeCasts_S64x2048_S1x64x2048 : S64x2048.ShapeCasts S1x64x2048
  dot_S64x2048_S6144x2048_S64x6144_1_1_0_0_n_n_wf : DotDims.WF S64x2048 S6144x2048 S64x6144 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S4x4096x2048.size a
  hwx0_0 : ∀ i : grid0.Coords, EltTy.bits .f32 = 32 ∨ (Rect.block (s := S4x4096x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S4x4096x2048.size a
  hwx0_1 : ∀ i : grid0.Coords, EltTy.bits .f32 = 32 ∨ (Rect.block (s := S4x4096x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x2048.size a
  hwx0_2 : ∀ i : grid0.Coords, EltTy.bits .f32 = 32 ∨ (Rect.block (s := S4x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6144x2048.size a ≤ S6144x2048.size a
  hwx0_6 : ∀ i : grid0.Coords, EltTy.bits .bf16 = 32 ∨ (Rect.block (s := S6144x2048) S6144x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x6144.size a ≤ S1x6144.size a
  hwx0_7 : ∀ i : grid0.Coords, EltTy.bits .f32 = 32 ∨ (Rect.block (s := S1x6144) S1x6144.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x2048.size a ≤ S4x4096x2048.size a
  hwx0_8 : ∀ i : grid0.Coords, EltTy.bits .f32 = 32 ∨ (Rect.block (s := S4x4096x2048) S1x64x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x2048.size a ≤ S4x4096x2048.size a
  hwx0_9 : ∀ i : grid0.Coords, EltTy.bits .f32 = 32 ∨ (Rect.block (s := S4x4096x2048) S1x64x2048.size (cc0_transform_9 i) (hinb0_9 i)).WholeWords (EltTy.packing .f32)

variable [Facts₀]

def dot_S64x2048_S6144x2048_S64x6144_1_1_0_0_n_n : DotDims S64x2048 S6144x2048 S64x6144 where
  lhsContracting := [1]
  rhsContracting := [1]
  lhsNonContracting := [0]
  rhsNonContracting := [0]
  lhsBatch := []
  rhsBatch := []
  wf := dot_S64x2048_S6144x2048_S64x6144_1_1_0_0_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S6144x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x6144.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S1x64x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S1x64x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x2048 : Shape := ⟨2, ![4, 2048]⟩
abbrev S2048 : Shape := ⟨1, ![2048]⟩
abbrev S6144x2048 : Shape := ⟨2, ![6144, 2048]⟩
abbrev S6144 : Shape := ⟨1, ![6144]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6144 : Shape := ⟨3, ![4, 4096, 6144]⟩
abbrev S1x1x6144 : Shape := ⟨3, ![1, 1, 6144]⟩
abbrev S4x1x2048 : Shape := ⟨3, ![4, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S6144x2048, .f32⟩
  | .hbm, ⟨7, _⟩ => ⟨S6144, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x6144, .f32⟩
  | .hbm, ⟨25, _⟩ => ⟨S1x1x6144, .f32⟩
  | .hbm, ⟨26, _⟩ => ⟨S4x4096x6144, .f32⟩
  | .hbm, ⟨27, _⟩ => ⟨S4x4096x6144, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096x2048, .f32⟩
  | .hbm, ⟨38, _⟩ => ⟨S4x4096x2048, .f32⟩
  | .hbm, ⟨39, _⟩ => ⟨S_, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .i1⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S_, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096x2048, .f32⟩
  | .hbm, ⟨60, _⟩ => ⟨S4x4096x2048, .f32⟩
  | .hbm, ⟨61, _⟩ => ⟨S4x1x2048, .f32⟩
  | .hbm, ⟨62, _⟩ => ⟨S_, .f32⟩
  | .hbm, ⟨63, _⟩ => ⟨S4x1x2048, .f32⟩
  | .hbm, ⟨64, _⟩ => ⟨S4x1x2048, .f32⟩
  | .hbm, ⟨65, _⟩ => ⟨S4x4096x2048, .f32⟩
  | .hbm, ⟨66, _⟩ => ⟨S4x4096x2048, .f32⟩
  | .hbm, ⟨67, _⟩ => ⟨S4x1x2048, .f32⟩
  | .hbm, ⟨68, _⟩ => ⟨S4x4096x2048, .f32⟩
  | .hbm, ⟨69, _⟩ => ⟨S4x4096x2048, .f32⟩
  | .hbm, ⟨70, _⟩ => ⟨S1x1x2048, .f32⟩
  | .hbm, ⟨71, _⟩ => ⟨S4x4096x2048, .f32⟩
  | .hbm, ⟨72, _⟩ => ⟨S4x4096x2048, .f32⟩
  | .hbm, ⟨73, _⟩ => ⟨S4x4096x2048, .f32⟩
  | .hbm, ⟨74, _⟩ => ⟨S4x4096x2048, .f32⟩
  | .hbm, ⟨75, _⟩ => ⟨S4x4096x2048, .f32⟩
  | .hbm, ⟨76, _⟩ => ⟨S_, .f32⟩
  | .hbm, ⟨77, _⟩ => ⟨S4x4096x2048, .f32⟩
  | .hbm, ⟨78, _⟩ => ⟨S4x4096x2048, .f32⟩
  | .hbm, ⟨79, _⟩ => ⟨S4x4096x2048, .f32⟩
  | .hbm, ⟨80, _⟩ => ⟨S4x4096x2048, .f32⟩
  | .hbm, ⟨81, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S6144_S1x1x6144_2 : S6144.BroadcastsInDim S1x1x6144 (![2] : Fin 1 → Fin S1x1x6144.rank)
  bcast_S1x1x6144_S4x4096x6144_0_1_2 : S1x1x6144.BroadcastsInDim S4x4096x6144 (![0, 1, 2] : Fin 3 → Fin S4x4096x6144.rank)
  slices_S4x4096x6144_S4x4096x2048_0_0_0 : S4x4096x6144.Slices ![0, 0, 0] S4x4096x2048
  slices_S4x4096x6144_S4x4096x2048_0_0_2048 : S4x4096x6144.Slices ![0, 0, 2048] S4x4096x2048
  slices_S4x4096x6144_S4x4096x2048_0_0_4096 : S4x4096x6144.Slices ![0, 0, 4096] S4x4096x2048
  bcast_S_S4x4096x2048 : S_.BroadcastsInDim S4x4096x2048 (![] : Fin 0 → Fin S4x4096x2048.rank)
  bcast_S4x2048_S4x1x2048_0_2 : S4x2048.BroadcastsInDim S4x1x2048 (![0, 2] : Fin 2 → Fin S4x1x2048.rank)
  bcast_S_S4x1x2048 : S_.BroadcastsInDim S4x1x2048 (![] : Fin 0 → Fin S4x1x2048.rank)
  bcast_S4x1x2048_S4x4096x2048_0_1_2 : S4x1x2048.BroadcastsInDim S4x4096x2048 (![0, 1, 2] : Fin 3 → Fin S4x4096x2048.rank)
  dot_S4x4096x2048_S6144x2048_S4x4096x6144_2_1_01_0_n_n_wf : DotDims.WF S4x4096x2048 S6144x2048 S4x4096x6144 [2] [1] [0, 1] [0] [] []

variable [Facts₀]

def dot_S4x4096x2048_S6144x2048_S4x4096x6144_2_1_01_0_n_n : DotDims S4x4096x2048 S6144x2048 S4x4096x6144 where
  lhsContracting := [2]
  rhsContracting := [1]
  lhsNonContracting := [0, 1]
  rhsNonContracting := [0]
  lhsBatch := []
  rhsBatch := []
  wf := dot_S4x4096x2048_S6144x2048_S4x4096x6144_2_1_01_0_n_n_wf

class Facts : Prop extends Facts₀ where

variable [Facts]
-- ==== Proof.Spec.lean ====
/-
  The mathematics of one row of the layer, on the extended reals.

  For a row `xr` of 2048 entries: the RMS normalisation `xr k · (Σ xr² / 2048 + ε)^(-1/2) · nw k`; the controller
  `ctrl e = Σ_k xnorm k · W e k + b e` for the 6144 output features, read in three bands of 2048 (the gates α, β, γ);
  the AdaLN value `xnorm d · (1 + scale d) + shift d`; the next velocity
  `v' = σ(ctrl d) · v − softplus(ctrl (d + 2048)) · (adaln − μ d)`; and the output `x + (adaln + 0.1 · σ(ctrl (d + 4096)) · v')`.
  Every float literal stays the extended real its word denotes: the same words occur on both sides of the claim.

  Two scalar facts relate the two spellings that occur: the sigmoid written out as `1 / (1 + e^{-a})` is the logistic
  function, and the `logaddexp(z, 0)` form of softplus, whose guard `d ≠ d` can never hold on the extended reals, is
  `max z 0 + log(1 + e^{-|z - 0|})` whether its inner negation is written `0 − |·|` or `−|·|`.
-/
import Idealize.ShloMosaic.PureOps.Ideal
import Idealize.ShloMosaic.PureOps.Ideal.Laws
import Idealize.ShloMosaic.Lib.ValueIdx

noncomputable section

open scoped BigOperators

namespace Cert.Robo

open Idealize.ShloMosaic Idealize.ShloMosaic.ValueIdx

/-- The extended real an f32 word denotes. -/
abbrev lit (b : BitVec 32) : EReal := Ideal.ofBits .f32 b

/-- The word of `1.0` denotes one. -/
theorem lit_one : lit 0x3F800000#32 = 1 := by
  simp [lit, Ideal.ofBits, Ideal.ieee]
  rw [← EReal.coe_mul, ← EReal.coe_one]
  congr 1
  norm_num

/-- The word of `+0.0` denotes zero. -/
theorem lit_zero : lit 0x00000000#32 = 0 := Ideal.ofBits_zero_f32

/-! ## One row -/

/-- The sum of the squares of a row. -/
def sumsq (xr : Fin 2048 → EReal) : EReal := ∑ k : Fin 2048, xr k * xr k

/-- The reciprocal root-mean-square of a row: `(Σ xr² / 2048 + ε)^(-1/2)`. -/
def rstd (xr : Fin 2048 → EReal) : EReal :=
  Ideal.rsqrt (Ideal.div (sumsq xr) (lit 0x45000000#32) + lit 0x358637BD#32)

/-- The normalised row, weighted. -/
def xnorm (xr nw : Fin 2048 → EReal) (k : Fin 2048) : EReal := xr k * rstd xr * nw k

/-- One output feature of the controller: the normalised row against one row of the weight matrix, plus its bias. -/
def ctrl (xr nw Wr : Fin 2048 → EReal) (be : EReal) : EReal := (∑ k : Fin 2048, xnorm xr nw k * Wr k) + be

/-! ## One element -/

/-- `softplus z = max z 0 + log (1 + e^{-|z - 0|})`. -/
def softplus (z : EReal) : EReal :=
  max z (lit 0x00000000#32)
    + Ideal.log1p (Ideal.exp (-(max (z - lit 0x00000000#32) (-(z - lit 0x00000000#32)))))

/-- AdaLN: `xn · (1 + scale) + shift`. -/
def adaln (xn sc sh : EReal) : EReal := xn * (lit 0x3F800000#32 + sc) + sh

/-- The next velocity: `σ(a) · v − softplus(bz) · (ada − μ)`. -/
def vnext (a bz ada mu v : EReal) : EReal := Ideal.logistic a * v - softplus bz * (ada - mu)

/-- The output: `x + (ada + 0.1 · σ(g) · v')`. -/
def outv (x ada g vn : EReal) : EReal := x + (ada + lit 0x3DCCCCCD#32 * Ideal.logistic g * vn)

/-- The three bands of the controller's 6144 features that feature `d` of the model reads. -/
abbrev band0 (d : Fin 2048) : Fin 6144 := ⟨d.val, by have := d.isLt; omega⟩
abbrev band1 (d : Fin 2048) : Fin 6144 := ⟨d.val + 2048, by have := d.isLt; omega⟩
abbrev band2 (d : Fin 2048) : Fin 6144 := ⟨d.val + 4096, by have := d.isLt; omega⟩

/-- The next velocity at feature `d` of a row, from the row, the parameters and this element's `scale`, `shift`, `μ`, `v`. -/
def vnextAt (xr nw : Fin 2048 → EReal) (W : Fin 6144 → Fin 2048 → EReal) (b : Fin 6144 → EReal)
    (sc sh mu v : EReal) (d : Fin 2048) : EReal :=
  vnext (ctrl xr nw (W (band0 d)) (b (band0 d))) (ctrl xr nw (W (band1 d)) (b (band1 d)))
    (adaln (xnorm xr nw d) sc sh) mu v

/-- The output at feature `d` of a row. -/
def outAt (xr nw : Fin 2048 → EReal) (W : Fin 6144 → Fin 2048 → EReal) (b : Fin 6144 → EReal)
    (sc sh mu v : EReal) (d : Fin 2048) : EReal :=
  outv (xr d) (adaln (xnorm xr nw d) sc sh) (ctrl xr nw (W (band2 d)) (b (band2 d)))
    (vnextAt xr nw W b sc sh mu v d)

/-! ## The two spellings -/

/-- The sigmoid written out, `1 / (1 + e^{-a})` with the literal ones, is the logistic function. -/
theorem logistic_spelled (a : EReal) :
    Ideal.div (lit 0x3F800000#32) (lit 0x3F800000#32 + Ideal.exp (-a)) = Ideal.logistic a := by
  rw [lit_one]; rfl

/-- No extended real differs from itself: the guard of `logaddexp` is the zero bit, under either predicate. -/
theorem cmp_one_self (a : EReal) : Ideal.cmp .one a a = 0#1 := by simp [Ideal.cmp]
theorem cmp_une_self (a : EReal) : Ideal.cmp .une a a = 0#1 := by simp [Ideal.cmp]

/-- `logaddexp(z, 0)` with its inner negation written `0 − |z − 0|`. -/
theorem softplus_sub (z : EReal) :
    Scalar.select (Ideal.cmp .one (z - lit 0x00000000#32) (z - lit 0x00000000#32)) (z + lit 0x00000000#32)
      (max z (lit 0x00000000#32)
        + Ideal.log1p (Ideal.exp (lit 0x00000000#32 - max (z - lit 0x00000000#32) (-(z - lit 0x00000000#32)))))
      = softplus z := by
  rw [cmp_one_self, select_zero]
  unfold softplus
  congr 3
  rw [lit_zero, zero_sub]

/-- `logaddexp(z, 0)` with its inner negation written `−|z − 0|`. -/
theorem softplus_neg (z : EReal) :
    Scalar.select (Ideal.cmp .une (z - lit 0x00000000#32) (z - lit 0x00000000#32)) (z + lit 0x00000000#32)
      (max z (lit 0x00000000#32)
        + Ideal.log1p (Ideal.exp (-(max (z - lit 0x00000000#32) (-(z - lit 0x00000000#32))))))
      = softplus z := by
  rw [cmp_une_self, select_zero]
  rfl

/-! ## The whole arrays -/

section Arrays

variable (a0 a1 : (⟨3, ![4, 4096, 2048]⟩ : Shape).Idx → EReal) (a2 a3 : (⟨2, ![4, 2048]⟩ : Shape).Idx → EReal)
  (a4 a5 : (⟨1, ![2048]⟩ : Shape).Idx → EReal) (a6 : (⟨2, ![6144, 2048]⟩ : Shape).Idx → EReal)
  (a7 : (⟨1, ![6144]⟩ : Shape).Idx → EReal)

/-- The next velocity at `(b, s, d)` from the eight arguments `x, v, shift, scale, norm_weight, μ, W, b`: row `(b, s)` of
    `x`, the batch entry's `scale` and `shift`, feature `d`'s `μ`, and `v` at the element. -/
def vnextArr (b : Fin 4) (s : Fin 4096) (d : Fin 2048) : EReal :=
  vnextAt (fun k => a0 (ix3 b s k)) (fun k => a4 (ix1 k)) (fun e k => a6 (ix2 e k)) (fun e => a7 (ix1 e))
    (a3 (ix2 b d)) (a2 (ix2 b d)) (a5 (ix1 d)) (a1 (ix3 b s d)) d

/-- The output at `(b, s, d)` from the eight arguments. -/
def outArr (b : Fin 4) (s : Fin 4096) (d : Fin 2048) : EReal :=
  outAt (fun k => a0 (ix3 b s k)) (fun k => a4 (ix1 k)) (fun e k => a6 (ix2 e k)) (fun e => a7 (ix1 e))
    (a3 (ix2 b d)) (a2 (ix2 b d)) (a5 (ix1 d)) (a1 (ix3 b s d)) d

/-- The array of next velocities. -/
def Gvn : (⟨3, ![4, 4096, 2048]⟩ : Shape).Idx → EReal := fun i => vnextArr a0 a1 a2 a3 a4 a5 a6 a7 (i 0) (i 1) (i 2)

/-- The output array. -/
def Gout : (⟨3, ![4, 4096, 2048]⟩ : Shape).Idx → EReal := fun i => outArr a0 a1 a2 a3 a4 a5 a6 a7 (i 0) (i 1) (i 2)

theorem Gvn_ix3 (b : Fin 4) (s : Fin 4096) (d : Fin 2048) :
    Gvn a0 a1 a2 a3 a4 a5 a6 a7 (ix3 b s d) = vnextArr a0 a1 a2 a3 a4 a5 a6 a7 b s d := rfl

theorem Gout_ix3 (b : Fin 4) (s : Fin 4096) (d : Fin 2048) :
    Gout a0 a1 a2 a3 a4 a5 a6 a7 (ix3 b s d) = outArr a0 a1 a2 a3 a4 a5 a6 a7 b s d := rfl

end Arrays

end Cert.Robo

end
-- ==== Proof.KernelBlock.lean ====
/-
  One block of the kernel, element by element.

  A block is 64 rows of 2048 features of one batch entry. The body's normalised row and its controller, which the
  generated block functions keep whole, are read here at an index: the lane sum of squares of row `r` is the sum over the
  row; the normalised block at `(r, k)` is `xnorm` of row `r`; the matrix product with the weights, contracted over the
  feature axis of both operands and accumulated into zero, plus the broadcast bias, at `(r, e)` is `ctrl` of row `r`
  against row `e` of the weights. With these the two stored blocks are `outAt` and `vnextAt` of the block's row.
-/
import proofs.«153802_j39926015984295_1_alg».proof.Proof.Gen.KernelIdeal.Value
import proofs.«153802_j39926015984295_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Robo

/-- Row `r` of an activation block. -/
abbrev rowOf (P : Vec Ideal S1x64x2048 .f32) (r : Fin 64) : Fin 2048 → EReal := fun k => P (ix3 (0 : Fin 1) r k)
/-- A per-feature parameter held as a one-row block. -/
abbrev vecOf (P : Vec Ideal S1x2048 .f32) : Fin 2048 → EReal := fun k => P (ix2 (0 : Fin 1) k)

/-- The lane sums of the squares of a block's rows. -/
abbrev ssVec (P0 : Vec Ideal S1x64x2048 .f32) : FVec Ideal S64 .f32 :=
  multiReduction .add [1] S64 (mulf (shapeCast S64x2048 P0 shapeCasts_S1x64x2048_S64x2048) (shapeCast S64x2048 P0 shapeCasts_S1x64x2048_S64x2048)) 0x00000000#32 reduces_S64x2048_S64 (.inl rfl) rfl

/-- Dropping the block's unit axis: the 64×2048 view at `(r, k)` is the block at `(0, r, k)`. -/
theorem flat_apply (P : Vec Ideal S1x64x2048 .f32) (r : Fin 64) (k : Fin 2048) :
    shapeCast S64x2048 P shapeCasts_S1x64x2048_S64x2048 (ix2 r k) = P (ix3 (0 : Fin 1) r k) :=
  shapeCast_apply _ _ _ _ (by
    rw [Shape.rowMajor_val_three, Shape.rowMajor_val_two]
    show (0 * 64 + r.val) * 2048 + k.val = r.val * 2048 + k.val
    omega)

/-- The lane sum at row `r` is the sum of the squares of the row. -/
theorem ssVec_apply (P0 : Vec Ideal S1x64x2048 .f32) (r : Fin 64) : ssVec P0 (ix1 r) = sumsq (rowOf P0 r) := by
  refine (Ideal.multiReduction_add_single _ 0x00000000#32 reduces_S64x2048_S64 (.inl rfl) rfl (ix1 r)).trans ?_
  show ∑ k : Fin 2048, (mulf (F := Ideal) (φ := .f32) (shapeCast S64x2048 P0 shapeCasts_S1x64x2048_S64x2048) (shapeCast S64x2048 P0 shapeCasts_S1x64x2048_S64x2048)) (reduces_S64x2048_S64.lift (ix1 r) k)
      = ∑ k : Fin 2048, rowOf P0 r k * rowOf P0 r k
  refine Finset.sum_congr rfl fun k _ => ?_
  have hl : reduces_S64x2048_S64.lift (ix1 r) k = ix2 r k :=
    funext fun a => Fin.ext (by match a with | ⟨0, _⟩ => rfl | ⟨1, _⟩ => rfl)
  rw [hl]
  show shapeCast S64x2048 P0 shapeCasts_S1x64x2048_S64x2048 (ix2 r k) * shapeCast S64x2048 P0 shapeCasts_S1x64x2048_S64x2048 (ix2 r k) = _
  rw [flat_apply]

/-- The normalised, weighted block at `(r, k)`. -/
theorem xn_apply (P0 : Vec Ideal S1x64x2048 .f32) (P1 : Vec Ideal S1x2048 .f32) (r : Fin 64) (k : Fin 2048) :
    k0_pay10 P0 P1 (ix2 r k) = xnorm (rowOf P0 r) (vecOf P1) k := by
  unfold k0_pay10 k0_pay5 xnorm
  show shapeCast S64x2048 P0 shapeCasts_S1x64x2048_S64x2048 (ix2 r k)
      * broadcastTo S64x2048 (rsqrt (addf (divf (shapeCast S64x1 (ssVec P0) shapeCasts_S64_S64x1) (broadcast S64x1 (Scalar.ofBits .f32 0x45000000#32))) (broadcast S64x1 (Scalar.ofBits .f32 0x358637BD#32)))) broadcasts_S64x1_S64x2048 (ix2 r k)
      * broadcastTo S64x2048 (shapeCast S1x2048 P1 shapeCasts_S1x2048_S1x2048) broadcasts_S1x2048_S64x2048 (ix2 r k) = _
  have e1 := flat_apply P0 r k
  have e2 : broadcastTo S64x2048 (rsqrt (addf (divf (shapeCast S64x1 (ssVec P0) shapeCasts_S64_S64x1) (broadcast S64x1 (Scalar.ofBits .f32 0x45000000#32))) (broadcast S64x1 (Scalar.ofBits .f32 0x358637BD#32)))) broadcasts_S64x1_S64x2048 (ix2 r k)
      = rstd (rowOf P0 r) := by
    refine (broadcastTo_apply _ _ (ix2 r k) (ix2 r (0 : Fin 1)) (fun a => match a with
      | ⟨0, _⟩ => by show r.val = (if (64 : Nat) = 1 then 0 else r.val); rw [if_neg (by decide)]
      | ⟨1, _⟩ => by show 0 = (if (1 : Nat) = 1 then 0 else k.val); rw [if_pos rfl])).trans ?_
    show Ideal.rsqrt (Ideal.div (shapeCast S64x1 (ssVec P0) shapeCasts_S64_S64x1 (ix2 r (0 : Fin 1))) (lit 0x45000000#32) + lit 0x358637BD#32) = _
    rw [shapeCast_apply (ssVec P0) shapeCasts_S64_S64x1 (ix2 r (0 : Fin 1)) (ix1 r) (by
      rw [Shape.rowMajor_val_one, Shape.rowMajor_val_two]; show r.val = r.val * 1 + 0; omega), ssVec_apply]
    rfl
  have e3 : broadcastTo S64x2048 (shapeCast S1x2048 P1 shapeCasts_S1x2048_S1x2048) broadcasts_S1x2048_S64x2048 (ix2 r k) = P1 (ix2 (0 : Fin 1) k) := by
    refine (broadcastTo_apply _ _ (ix2 r k) (ix2 (0 : Fin 1) k) (fun a => match a with
      | ⟨0, _⟩ => by show 0 = (if (1 : Nat) = 1 then 0 else r.val); rw [if_pos rfl]
      | ⟨1, _⟩ => by show k.val = (if (2048 : Nat) = 1 then 0 else k.val); rw [if_neg (by decide)])).trans ?_
    rw [shapeCast_self]
  rw [e1, e2, e3]

/-! ## The matrix product -/

theorem lhs_0 (i : S64x6144.Idx) (q : dot_S64x2048_S6144x2048_S64x6144_1_1_0_0_n_n.contr.Idx) :
    (dot_S64x2048_S6144x2048_S64x6144_1_1_0_0_n_n.lhsIdx i q 0).val = (i 0).val := by
  unfold DotDims.lhsIdx
  rw [dif_neg (show ¬(0 : Fin S64x2048.rank) ∈ dot_S64x2048_S6144x2048_S64x6144_1_1_0_0_n_n.lhsBatch by decide), dif_pos (show (0 : Fin S64x2048.rank) ∈ dot_S64x2048_S6144x2048_S64x6144_1_1_0_0_n_n.lhsNonContracting by decide)]
  rfl
theorem lhs_1 (i : S64x6144.Idx) (q : dot_S64x2048_S6144x2048_S64x6144_1_1_0_0_n_n.contr.Idx) :
    (dot_S64x2048_S6144x2048_S64x6144_1_1_0_0_n_n.lhsIdx i q 1).val = (q ⟨0, by decide⟩).val :=
  dot_S64x2048_S6144x2048_S64x6144_1_1_0_0_n_n.lhsIdx_val_of_single rfl i q
theorem rhs_0 (i : S64x6144.Idx) (q : dot_S64x2048_S6144x2048_S64x6144_1_1_0_0_n_n.contr.Idx) :
    (dot_S64x2048_S6144x2048_S64x6144_1_1_0_0_n_n.rhsIdx i q 0).val = (i 1).val := by
  unfold DotDims.rhsIdx
  rw [dif_neg (show ¬(0 : Fin S6144x2048.rank) ∈ dot_S64x2048_S6144x2048_S64x6144_1_1_0_0_n_n.rhsBatch by decide), dif_pos (show (0 : Fin S6144x2048.rank) ∈ dot_S64x2048_S6144x2048_S64x6144_1_1_0_0_n_n.rhsNonContracting by decide)]
  rfl
theorem rhs_1 (i : S64x6144.Idx) (q : dot_S64x2048_S6144x2048_S64x6144_1_1_0_0_n_n.contr.Idx) :
    (dot_S64x2048_S6144x2048_S64x6144_1_1_0_0_n_n.rhsIdx i q 1).val = (q ⟨0, by decide⟩).val :=
  dot_S64x2048_S6144x2048_S64x6144_1_1_0_0_n_n.rhsIdx_val_of_single rfl i q

/-- The controller at `(r, e)`: the normalised row `r` against row `e` of the weights, plus bias `e`. -/
theorem ctrl_apply (P0 : Vec Ideal S1x64x2048 .f32) (P1 : Vec Ideal S1x2048 .f32) (P4 : Vec Ideal S1x6144 .f32) (P5 : Vec Ideal S6144x2048 .bf16)
    (r : Fin 64) (e : Fin 6144) :
    k0_pay11 P0 P1 P4 P5 (ix2 r e) = ctrl (rowOf P0 r) (vecOf P1) (fun k => P5 (ix2 e k)) (P4 (ix2 (0 : Fin 1) e)) := by
  unfold k0_pay11 ctrl
  show FloatOps.matmul (φ₁ := .bf16) (φ₂ := .bf16) dot_S64x2048_S6144x2048_S64x6144_1_1_0_0_n_n none (truncf .bf16 (k0_pay10 P0 P1) bitsLt_bf16_f32) (shapeCast S6144x2048 P5 shapeCasts_S6144x2048_S6144x2048) (constant S64x6144 .f32 0x00000000#32) (ix2 r e)
      + broadcastTo S64x6144 (shapeCast S1x6144 P4 shapeCasts_S1x6144_S1x6144) broadcasts_S1x6144_S64x6144 (ix2 r e) = _
  have eb : broadcastTo S64x6144 (shapeCast S1x6144 P4 shapeCasts_S1x6144_S1x6144) broadcasts_S1x6144_S64x6144 (ix2 r e) = P4 (ix2 (0 : Fin 1) e) := by
    refine (broadcastTo_apply _ _ (ix2 r e) (ix2 (0 : Fin 1) e) (fun a => match a with
      | ⟨0, _⟩ => by show 0 = (if (1 : Nat) = 1 then 0 else r.val); rw [if_pos rfl]
      | ⟨1, _⟩ => by show e.val = (if (6144 : Nat) = 1 then 0 else e.val); rw [if_neg (by decide)])).trans ?_
    rw [shapeCast_self]
  have em : FloatOps.matmul (φ₁ := .bf16) (φ₂ := .bf16) dot_S64x2048_S6144x2048_S64x6144_1_1_0_0_n_n none (truncf .bf16 (k0_pay10 P0 P1) bitsLt_bf16_f32) (shapeCast S6144x2048 P5 shapeCasts_S6144x2048_S6144x2048) (constant S64x6144 .f32 0x00000000#32) (ix2 r e)
      = ∑ k : Fin 2048, xnorm (rowOf P0 r) (vecOf P1) k * P5 (ix2 e k) := by
    refine (Ideal.matmul_constant_zero_apply (φ₁ := .bf16) (φ₂ := .bf16) dot_S64x2048_S6144x2048_S64x6144_1_1_0_0_n_n none _ _ (ix2 r e)).trans ?_
    rw [← Equiv.sum_comp (contrEquiv1 dot_S64x2048_S6144x2048_S64x6144_1_1_0_0_n_n 2048 rfl rfl).symm]
    refine Finset.sum_congr rfl fun k _ => ?_
    have hk := contrEquiv1_symm_val dot_S64x2048_S6144x2048_S64x6144_1_1_0_0_n_n 2048 rfl rfl k
    have el : dot_S64x2048_S6144x2048_S64x6144_1_1_0_0_n_n.lhsIdx (ix2 r e) ((contrEquiv1 dot_S64x2048_S6144x2048_S64x6144_1_1_0_0_n_n 2048 rfl rfl).symm k) = ix2 r k := funext fun a => Fin.ext (by
      match a with
      | ⟨0, _⟩ => exact lhs_0 _ _
      | ⟨1, _⟩ => exact (lhs_1 _ _).trans hk)
    have er : dot_S64x2048_S6144x2048_S64x6144_1_1_0_0_n_n.rhsIdx (ix2 r e) ((contrEquiv1 dot_S64x2048_S6144x2048_S64x6144_1_1_0_0_n_n 2048 rfl rfl).symm k) = ix2 e k := funext fun a => Fin.ext (by
      match a with
      | ⟨0, _⟩ => exact rhs_0 _ _
      | ⟨1, _⟩ => exact (rhs_1 _ _).trans hk)
    rw [el, er]
    show k0_pay10 P0 P1 (ix2 r k) * shapeCast S6144x2048 P5 shapeCasts_S6144x2048_S6144x2048 (ix2 e k) = _
    rw [xn_apply, shapeCast_self]
  rw [em, eb]

/-! ## The two stored blocks, element by element -/

/-- A scalar literal of the body is the extended real its word denotes. -/
theorem scalar_lit (b : BitVec 32) : Scalar.ofBits (F := Ideal) .f32 b = lit b := rfl

/-- The block of next velocities at row `r`, feature `d`. (The loads, in the generated block function's order: the
    activations, the norm weight, the bias, the weights, the velocities, scale, shift, μ.) -/
theorem vnext_block (P0 : Vec Ideal S1x64x2048 .f32) (P1 : Vec Ideal S1x2048 .f32) (P2 : Vec Ideal S1x6144 .f32) (P3 : Vec Ideal S6144x2048 .bf16)
    (P4 : Vec Ideal S1x64x2048 .f32) (P5 P6 : Vec Ideal S1x1x2048 .f32) (P7 : Vec Ideal S1x2048 .f32) (r : Fin 64) (d : Fin 2048) :
    Value.E9 (F := Ideal) P0 P1 P2 P3 P4 P5 P6 P7 (ix3 (0 : Fin 1) r d)
      = vnextAt (rowOf P0 r) (vecOf P1) (fun e k => P3 (ix2 e k)) (fun e => P2 (ix2 (0 : Fin 1) e))
          (P5 (ix3 (0 : Fin 1) (0 : Fin 1) d)) (P6 (ix3 (0 : Fin 1) (0 : Fin 1) d)) (P7 (ix2 (0 : Fin 1) d)) (P4 (ix3 (0 : Fin 1) r d)) d := by
  have i0 : Value.ix9_0 (ix3 (0 : Fin 1) r d) = ix2 r (band0 d) := funext fun a => Fin.ext (by match a with | ⟨0, _⟩ => rfl | ⟨1, _⟩ => rfl)
  have i1 : Value.ix9_1 (ix3 (0 : Fin 1) r d) = ix3 (0 : Fin 1) r d := funext fun a => Fin.ext (by match a with | ⟨0, _⟩ => rfl | ⟨1, _⟩ => rfl | ⟨2, _⟩ => rfl)
  have i2 : Value.ix9_2 (ix3 (0 : Fin 1) r d) = ix2 r (band1 d) := funext fun a => Fin.ext (by match a with | ⟨0, _⟩ => rfl | ⟨1, _⟩ => rfl)
  have i3 : Value.ix9_3 (ix3 (0 : Fin 1) r d) = ix2 r (band1 d) := funext fun a => Fin.ext (by match a with | ⟨0, _⟩ => rfl | ⟨1, _⟩ => rfl)
  have i4 : Value.ix9_4 (ix3 (0 : Fin 1) r d) = ix2 r (band1 d) := funext fun a => Fin.ext (by match a with | ⟨0, _⟩ => rfl | ⟨1, _⟩ => rfl)
  have i5 : Value.ix9_5 (ix3 (0 : Fin 1) r d) = ix2 r (band1 d) := funext fun a => Fin.ext (by match a with | ⟨0, _⟩ => rfl | ⟨1, _⟩ => rfl)
  have i6 : Value.ix9_6 (ix3 (0 : Fin 1) r d) = ix2 r (band1 d) := funext fun a => Fin.ext (by match a with | ⟨0, _⟩ => rfl | ⟨1, _⟩ => rfl)
  have i7 : Value.ix9_7 (ix3 (0 : Fin 1) r d) = ix3 (0 : Fin 1) r d := funext fun a => Fin.ext (by match a with | ⟨0, _⟩ => rfl | ⟨1, _⟩ => rfl | ⟨2, _⟩ => rfl)
  have i8 : Value.ix9_8 (ix3 (0 : Fin 1) r d) = ix1 r := funext fun a => Fin.ext (by match a with | ⟨0, _⟩ => rfl)
  have i9 : Value.ix9_9 (ix3 (0 : Fin 1) r d) = ix2 (0 : Fin 1) d := funext fun a => Fin.ext (by match a with | ⟨0, _⟩ => rfl | ⟨1, _⟩ => rfl)
  have i10 : Value.ix9_10 (ix3 (0 : Fin 1) r d) = ix3 (0 : Fin 1) (0 : Fin 1) d := funext fun a => Fin.ext (by match a with | ⟨0, _⟩ => rfl | ⟨1, _⟩ => rfl | ⟨2, _⟩ => rfl)
  have i11 : Value.ix9_11 (ix3 (0 : Fin 1) r d) = ix3 (0 : Fin 1) (0 : Fin 1) d := funext fun a => Fin.ext (by match a with | ⟨0, _⟩ => rfl | ⟨1, _⟩ => rfl | ⟨2, _⟩ => rfl)
  have i12 : Value.ix9_12 (ix3 (0 : Fin 1) r d) = ix2 (0 : Fin 1) d := funext fun a => Fin.ext (by match a with | ⟨0, _⟩ => rfl | ⟨1, _⟩ => rfl)
  show FloatOps.subf (FloatOps.mulf (FloatOps.logistic ((k0_pay11 P0 P1 P2 P3) (Value.ix9_0 (ix3 (0 : Fin 1) r d)))) (P4 (Value.ix9_1 (ix3 (0 : Fin 1) r d)))) (FloatOps.mulf (Scalar.select (FloatOps.cmpf .one (FloatOps.subf ((k0_pay11 P0 P1 P2 P3) (Value.ix9_2 (ix3 (0 : Fin 1) r d))) (Scalar.ofBits .f32 0x00000000#32)) (FloatOps.subf ((k0_pay11 P0 P1 P2 P3) (Value.ix9_3 (ix3 (0 : Fin 1) r d))) (Scalar.ofBits .f32 0x00000000#32))) (FloatOps.addf ((k0_pay11 P0 P1 P2 P3) (Value.ix9_4 (ix3 (0 : Fin 1) r d))) (Scalar.ofBits .f32 0x00000000#32)) (FloatOps.addf (FloatOps.maximumf ((k0_pay11 P0 P1 P2 P3) (Value.ix9_5 (ix3 (0 : Fin 1) r d))) (Scalar.ofBits .f32 0x00000000#32)) (FloatOps.log1p (FloatOps.exp (FloatOps.subf (Scalar.ofBits .f32 0x00000000#32) (FloatOps.absf (FloatOps.subf ((k0_pay11 P0 P1 P2 P3) (Value.ix9_6 (ix3 (0 : Fin 1) r d))) (Scalar.ofBits .f32 0x00000000#32)))))))) (FloatOps.subf (FloatOps.addf (FloatOps.mulf (FloatOps.mulf (FloatOps.mulf (P0 (Value.ix9_7 (ix3 (0 : Fin 1) r d))) (FloatOps.rsqrt (FloatOps.addf (FloatOps.divf ((ssVec P0) (Value.ix9_8 (ix3 (0 : Fin 1) r d))) (Scalar.ofBits .f32 0x45000000#32)) (Scalar.ofBits .f32 0x358637BD#32)))) (P1 (Value.ix9_9 (ix3 (0 : Fin 1) r d)))) (FloatOps.addf (Scalar.ofBits .f32 0x3F800000#32) (P5 (Value.ix9_10 (ix3 (0 : Fin 1) r d))))) (P6 (Value.ix9_11 (ix3 (0 : Fin 1) r d)))) (P7 (Value.ix9_12 (ix3 (0 : Fin 1) r d))))) = _
  rw [i0, i1, i2, i3, i4, i5, i6, i7, i8, i9, i10, i11, i12, ctrl_apply, ctrl_apply, ssVec_apply]
  simp only [Ideal.subf_def, Ideal.mulf_def, Ideal.addf_def, Ideal.divf_def, Ideal.rsqrt_def, Ideal.logistic_def, Ideal.maximumf_def, Ideal.log1p_def, Ideal.exp_def, Ideal.cmpf_def, Ideal.absf_def, scalar_lit]
  rw [softplus_sub]
  rfl

/-- The output block at row `r`, feature `d`. (The loads, in the generated block function's order: the activations,
    the norm weight, scale, shift, the bias, the weights, the velocities, μ.) -/
theorem out_block (P0 : Vec Ideal S1x64x2048 .f32) (P1 : Vec Ideal S1x2048 .f32) (P2 P3 : Vec Ideal S1x1x2048 .f32) (P4 : Vec Ideal S1x6144 .f32)
    (P5 : Vec Ideal S6144x2048 .bf16) (P6 : Vec Ideal S1x64x2048 .f32) (P7 : Vec Ideal S1x2048 .f32) (r : Fin 64) (d : Fin 2048) :
    Value.E8 (F := Ideal) P0 P1 P2 P3 P4 P5 P6 P7 (ix3 (0 : Fin 1) r d)
      = outAt (rowOf P0 r) (vecOf P1) (fun e k => P5 (ix2 e k)) (fun e => P4 (ix2 (0 : Fin 1) e))
          (P2 (ix3 (0 : Fin 1) (0 : Fin 1) d)) (P3 (ix3 (0 : Fin 1) (0 : Fin 1) d)) (P7 (ix2 (0 : Fin 1) d)) (P6 (ix3 (0 : Fin 1) r d)) d := by
  have i0 : Value.ix8_0 (ix3 (0 : Fin 1) r d) = ix3 (0 : Fin 1) r d := funext fun a => Fin.ext (by match a with | ⟨0, _⟩ => rfl | ⟨1, _⟩ => rfl | ⟨2, _⟩ => rfl)
  have i1 : Value.ix8_1 (ix3 (0 : Fin 1) r d) = ix3 (0 : Fin 1) r d := funext fun a => Fin.ext (by match a with | ⟨0, _⟩ => rfl | ⟨1, _⟩ => rfl | ⟨2, _⟩ => rfl)
  have i2 : Value.ix8_2 (ix3 (0 : Fin 1) r d) = ix1 r := funext fun a => Fin.ext (by match a with | ⟨0, _⟩ => rfl)
  have i3 : Value.ix8_3 (ix3 (0 : Fin 1) r d) = ix2 (0 : Fin 1) d := funext fun a => Fin.ext (by match a with | ⟨0, _⟩ => rfl | ⟨1, _⟩ => rfl)
  have i4 : Value.ix8_4 (ix3 (0 : Fin 1) r d) = ix3 (0 : Fin 1) (0 : Fin 1) d := funext fun a => Fin.ext (by match a with | ⟨0, _⟩ => rfl | ⟨1, _⟩ => rfl | ⟨2, _⟩ => rfl)
  have i5 : Value.ix8_5 (ix3 (0 : Fin 1) r d) = ix3 (0 : Fin 1) (0 : Fin 1) d := funext fun a => Fin.ext (by match a with | ⟨0, _⟩ => rfl | ⟨1, _⟩ => rfl | ⟨2, _⟩ => rfl)
  have i6 : Value.ix8_6 (ix3 (0 : Fin 1) r d) = ix2 r (band2 d) := funext fun a => Fin.ext (by match a with | ⟨0, _⟩ => rfl | ⟨1, _⟩ => rfl)
  have i7 : Value.ix8_7 (ix3 (0 : Fin 1) r d) = ix2 r (band0 d) := funext fun a => Fin.ext (by match a with | ⟨0, _⟩ => rfl | ⟨1, _⟩ => rfl)
  have i8 : Value.ix8_8 (ix3 (0 : Fin 1) r d) = ix3 (0 : Fin 1) r d := funext fun a => Fin.ext (by match a with | ⟨0, _⟩ => rfl | ⟨1, _⟩ => rfl | ⟨2, _⟩ => rfl)
  have i9 : Value.ix8_9 (ix3 (0 : Fin 1) r d) = ix2 r (band1 d) := funext fun a => Fin.ext (by match a with | ⟨0, _⟩ => rfl | ⟨1, _⟩ => rfl)
  have i10 : Value.ix8_10 (ix3 (0 : Fin 1) r d) = ix2 r (band1 d) := funext fun a => Fin.ext (by match a with | ⟨0, _⟩ => rfl | ⟨1, _⟩ => rfl)
  have i11 : Value.ix8_11 (ix3 (0 : Fin 1) r d) = ix2 r (band1 d) := funext fun a => Fin.ext (by match a with | ⟨0, _⟩ => rfl | ⟨1, _⟩ => rfl)
  have i12 : Value.ix8_12 (ix3 (0 : Fin 1) r d) = ix2 r (band1 d) := funext fun a => Fin.ext (by match a with | ⟨0, _⟩ => rfl | ⟨1, _⟩ => rfl)
  have i13 : Value.ix8_13 (ix3 (0 : Fin 1) r d) = ix2 r (band1 d) := funext fun a => Fin.ext (by match a with | ⟨0, _⟩ => rfl | ⟨1, _⟩ => rfl)
  have i14 : Value.ix8_14 (ix3 (0 : Fin 1) r d) = ix3 (0 : Fin 1) r d := funext fun a => Fin.ext (by match a with | ⟨0, _⟩ => rfl | ⟨1, _⟩ => rfl | ⟨2, _⟩ => rfl)
  have i15 : Value.ix8_15 (ix3 (0 : Fin 1) r d) = ix1 r := funext fun a => Fin.ext (by match a with | ⟨0, _⟩ => rfl)
  have i16 : Value.ix8_16 (ix3 (0 : Fin 1) r d) = ix2 (0 : Fin 1) d := funext fun a => Fin.ext (by match a with | ⟨0, _⟩ => rfl | ⟨1, _⟩ => rfl)
  have i17 : Value.ix8_17 (ix3 (0 : Fin 1) r d) = ix3 (0 : Fin 1) (0 : Fin 1) d := funext fun a => Fin.ext (by match a with | ⟨0, _⟩ => rfl | ⟨1, _⟩ => rfl | ⟨2, _⟩ => rfl)
  have i18 : Value.ix8_18 (ix3 (0 : Fin 1) r d) = ix3 (0 : Fin 1) (0 : Fin 1) d := funext fun a => Fin.ext (by match a with | ⟨0, _⟩ => rfl | ⟨1, _⟩ => rfl | ⟨2, _⟩ => rfl)
  have i19 : Value.ix8_19 (ix3 (0 : Fin 1) r d) = ix2 (0 : Fin 1) d := funext fun a => Fin.ext (by match a with | ⟨0, _⟩ => rfl | ⟨1, _⟩ => rfl)
  show FloatOps.addf (P0 (Value.ix8_0 (ix3 (0 : Fin 1) r d))) (FloatOps.addf (FloatOps.addf (FloatOps.mulf (FloatOps.mulf (FloatOps.mulf (P0 (Value.ix8_1 (ix3 (0 : Fin 1) r d))) (FloatOps.rsqrt (FloatOps.addf (FloatOps.divf ((ssVec P0) (Value.ix8_2 (ix3 (0 : Fin 1) r d))) (Scalar.ofBits .f32 0x45000000#32)) (Scalar.ofBits .f32 0x358637BD#32)))) (P1 (Value.ix8_3 (ix3 (0 : Fin 1) r d)))) (FloatOps.addf (Scalar.ofBits .f32 0x3F800000#32) (P2 (Value.ix8_4 (ix3 (0 : Fin 1) r d))))) (P3 (Value.ix8_5 (ix3 (0 : Fin 1) r d)))) (FloatOps.mulf (FloatOps.mulf (Scalar.ofBits .f32 0x3DCCCCCD#32) (FloatOps.logistic ((k0_pay11 P0 P1 P4 P5) (Value.ix8_6 (ix3 (0 : Fin 1) r d))))) (FloatOps.subf (FloatOps.mulf (FloatOps.logistic ((k0_pay11 P0 P1 P4 P5) (Value.ix8_7 (ix3 (0 : Fin 1) r d)))) (P6 (Value.ix8_8 (ix3 (0 : Fin 1) r d)))) (FloatOps.mulf (Scalar.select (FloatOps.cmpf .one (FloatOps.subf ((k0_pay11 P0 P1 P4 P5) (Value.ix8_9 (ix3 (0 : Fin 1) r d))) (Scalar.ofBits .f32 0x00000000#32)) (FloatOps.subf ((k0_pay11 P0 P1 P4 P5) (Value.ix8_10 (ix3 (0 : Fin 1) r d))) (Scalar.ofBits .f32 0x00000000#32))) (FloatOps.addf ((k0_pay11 P0 P1 P4 P5) (Value.ix8_11 (ix3 (0 : Fin 1) r d))) (Scalar.ofBits .f32 0x00000000#32)) (FloatOps.addf (FloatOps.maximumf ((k0_pay11 P0 P1 P4 P5) (Value.ix8_12 (ix3 (0 : Fin 1) r d))) (Scalar.ofBits .f32 0x00000000#32)) (FloatOps.log1p (FloatOps.exp (FloatOps.subf (Scalar.ofBits .f32 0x00000000#32) (FloatOps.absf (FloatOps.subf ((k0_pay11 P0 P1 P4 P5) (Value.ix8_13 (ix3 (0 : Fin 1) r d))) (Scalar.ofBits .f32 0x00000000#32)))))))) (FloatOps.subf (FloatOps.addf (FloatOps.mulf (FloatOps.mulf (FloatOps.mulf (P0 (Value.ix8_14 (ix3 (0 : Fin 1) r d))) (FloatOps.rsqrt (FloatOps.addf (FloatOps.divf ((ssVec P0) (Value.ix8_15 (ix3 (0 : Fin 1) r d))) (Scalar.ofBits .f32 0x45000000#32)) (Scalar.ofBits .f32 0x358637BD#32)))) (P1 (Value.ix8_16 (ix3 (0 : Fin 1) r d)))) (FloatOps.addf (Scalar.ofBits .f32 0x3F800000#32) (P2 (Value.ix8_17 (ix3 (0 : Fin 1) r d))))) (P3 (Value.ix8_18 (ix3 (0 : Fin 1) r d)))) (P7 (Value.ix8_19 (ix3 (0 : Fin 1) r d)))))))) = _
  rw [i0, i1, i2, i3, i4, i5, i6, i7, i8, i9, i10, i11, i12, i13, i14, i15, i16, i17, i18, i19, ctrl_apply, ctrl_apply, ctrl_apply, ssVec_apply]
  simp only [Ideal.subf_def, Ideal.mulf_def, Ideal.addf_def, Ideal.divf_def, Ideal.rsqrt_def, Ideal.logistic_def, Ideal.maximumf_def, Ideal.log1p_def, Ideal.exp_def, Ideal.cmpf_def, Ideal.absf_def, scalar_lit]
  rw [softplus_sub]
  rfl

/-! ## What the body leaves in the two output buffers -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output buffer after the body, at row `r`, feature `d`, from the eight input blocks. -/
theorem out0_8_apply (x0 x1 : Vec Ideal S1x64x2048 .f32) (x2 x3 : Vec Ideal S1x1x2048 .f32) (x4 x5 : Vec Ideal S1x2048 .f32)
    (x6 : Vec Ideal S6144x2048 .bf16) (x7 : Vec Ideal S1x6144 .f32) (r : Fin 64) (d : Fin 2048) :
    out0_8 x0 x1 x2 x3 x4 x5 x6 x7 (ix3 (0 : Fin 1) r d)
      = outAt (rowOf x0 r) (vecOf x4) (fun e k => x6 (ix2 e k)) (fun e => x7 (ix2 (0 : Fin 1) e))
          (x3 (ix3 (0 : Fin 1) (0 : Fin 1) d)) (x2 (ix3 (0 : Fin 1) (0 : Fin 1) d)) (x5 (ix2 (0 : Fin 1) d)) (x1 (ix3 (0 : Fin 1) r d)) d := by
  unfold out0_8
  simp only [View.ld_unit_zero (S := S1x64x2048) hz3, View.ld_unit_zero (S := S1x1x2048) hz3, View.ld_unit_zero (S := S1x2048) hz2,
    View.ld_unit_zero (S := S1x6144) hz2, View.ld_unit_zero (S := S6144x2048) hz2]
  exact (Value.canon8_eq x0 x4 x3 x2 x7 x6 x1 x5 _).trans (out_block x0 x4 x3 x2 x7 x6 x1 x5 r d)

/-- The next-velocity buffer after the body, at row `r`, feature `d`. -/
theorem out0_9_apply (x0 x1 : Vec Ideal S1x64x2048 .f32) (x2 x3 : Vec Ideal S1x1x2048 .f32) (x4 x5 : Vec Ideal S1x2048 .f32)
    (x6 : Vec Ideal S6144x2048 .bf16) (x7 : Vec Ideal S1x6144 .f32) (r : Fin 64) (d : Fin 2048) :
    out0_9 x0 x1 x2 x3 x4 x5 x6 x7 (ix3 (0 : Fin 1) r d)
      = vnextAt (rowOf x0 r) (vecOf x4) (fun e k => x6 (ix2 e k)) (fun e => x7 (ix2 (0 : Fin 1) e))
          (x3 (ix3 (0 : Fin 1) (0 : Fin 1) d)) (x2 (ix3 (0 : Fin 1) (0 : Fin 1) d)) (x5 (ix2 (0 : Fin 1) d)) (x1 (ix3 (0 : Fin 1) r d)) d := by
  unfold out0_9
  simp only [View.ld_unit_zero (S := S1x64x2048) hz3, View.ld_unit_zero (S := S1x1x2048) hz3, View.ld_unit_zero (S := S1x2048) hz2,
    View.ld_unit_zero (S := S1x6144) hz2, View.ld_unit_zero (S := S6144x2048) hz2]
  exact (Value.canon9_eq x0 x4 x7 x6 x1 x3 x2 x5 _).trans (vnext_block x0 x4 x7 x6 x1 x3 x2 x5 r d)

end Cert.KernelIdeal.Block

end
-- ==== Proof.KernelArray.lean ====
/-
  From blocks to arrays.

  The grid is 4 × 64: point `t` works on batch entry `t / 64` and on rows `64 (t % 64) … 64 (t % 64) + 63`. The two
  activation windows and the two result windows move with the point; the `shift` and `scale` windows follow the batch
  entry only; the norm weight, μ, the weights and the bias are one whole block. Before the call the host reshapes `shift`
  and `scale` to [4, 1, 2048], the norm weight, μ and the bias to one row, and changes the weights' float format (the
  identity on extended reals). So every block the body loads is a restriction of an argument array, what each point writes
  back is the point's block of the whole-array functions `Gout` and `Gvn`, and since the 256 blocks tile the two result
  arrays, the arrays end holding those functions.
-/
import proofs.«153802_j39926015984295_1_alg».proof.Proof.KernelBlock
import Idealize.ShloMosaic.Lib.StableHlo.Run

noncomputable section

namespace Cert.KernelIdeal.ArrValue

open Cert.KernelIdeal Cert.KernelIdeal.Gen Cert.KernelIdeal.Block Idealize.ShloMosaic Idealize.ShloMosaic.ValueIdx
open Idealize.ShloMosaic.TcCoe Idealize.SL.Sem Cert.Robo
open Idealize.ShloMosaic.Pipeline (Dat)

variable (m : (ℓ : Loc nD τ sig) → Buf (Elt Ideal) ℓ) (ρ : Dev nD → PrngReg)

/-! ## The arguments, and the blocks at a point -/

abbrev A0 (c : Dev nD) : S4x4096x2048.Idx → EReal := m ((c : Thread nD τ).loc main_arg0)
abbrev A1 (c : Dev nD) : S4x4096x2048.Idx → EReal := m ((c : Thread nD τ).loc main_arg1)
abbrev A2 (c : Dev nD) : S4x2048.Idx → EReal := m ((c : Thread nD τ).loc main_arg2)
abbrev A3 (c : Dev nD) : S4x2048.Idx → EReal := m ((c : Thread nD τ).loc main_arg3)
abbrev A4 (c : Dev nD) : S2048.Idx → EReal := m ((c : Thread nD τ).loc main_arg4)
abbrev A5 (c : Dev nD) : S2048.Idx → EReal := m ((c : Thread nD τ).loc main_arg5)
abbrev A6 (c : Dev nD) : S6144x2048.Idx → EReal := m ((c : Thread nD τ).loc main_arg6)
abbrev A7 (c : Dev nD) : S6144.Idx → EReal := m ((c : Thread nD τ).loc main_arg7)

abbrev B0 (c : Dev nD) (t : Fin cfg0.N) : Vec Ideal S1x64x2048 .f32 := iblk m c 0 t
abbrev B1 (c : Dev nD) (t : Fin cfg0.N) : Vec Ideal S1x64x2048 .f32 := iblk m c 1 t
abbrev B2 (c : Dev nD) (t : Fin cfg0.N) : Vec Ideal S1x1x2048 .f32 := iblk m c 2 t
abbrev B3 (c : Dev nD) (t : Fin cfg0.N) : Vec Ideal S1x1x2048 .f32 := iblk m c 3 t
abbrev B4 (c : Dev nD) (t : Fin cfg0.N) : Vec Ideal S1x2048 .f32 := iblk m c 4 t
abbrev B5 (c : Dev nD) (t : Fin cfg0.N) : Vec Ideal S1x2048 .f32 := iblk m c 5 t
abbrev B6 (c : Dev nD) (t : Fin cfg0.N) : Vec Ideal S6144x2048 .bf16 := iblk m c 6 t
abbrev B7 (c : Dev nD) (t : Fin cfg0.N) : Vec Ideal S1x6144 .f32 := iblk m c 7 t

/-- The batch entry of point `t`, and the array row of the point's block row `r`. -/
abbrev bOf (t : Fin cfg0.N) : Fin 4 := ⟨t.val / 64, by have h := t.isLt; have hN : cfg0.N = 256 := N_0; omega⟩
abbrev sOf (t : Fin cfg0.N) (r : Fin 64) : Fin 4096 := ⟨t.val % 64 * 64 + r.val, by have h := r.isLt; omega⟩

/-! ## The index maps, decided over the grid -/

theorem idx_0 : ∀ t : Fin cfg0.N, win0_0.index t (0 : Fin 3) = t.val / 64 ∧ win0_0.index t (1 : Fin 3) = t.val % 64 ∧ win0_0.index t (2 : Fin 3) = 0 := (by decide +kernel : ∀ t : Fin grid0.N, _)
theorem idx_1 : ∀ t : Fin cfg0.N, win0_1.index t (0 : Fin 3) = t.val / 64 ∧ win0_1.index t (1 : Fin 3) = t.val % 64 ∧ win0_1.index t (2 : Fin 3) = 0 := (by decide +kernel : ∀ t : Fin grid0.N, _)
theorem idx_2 : ∀ t : Fin cfg0.N, win0_2.index t (0 : Fin 3) = t.val / 64 ∧ win0_2.index t (1 : Fin 3) = 0 ∧ win0_2.index t (2 : Fin 3) = 0 := (by decide +kernel : ∀ t : Fin grid0.N, _)
theorem idx_3 : ∀ t : Fin cfg0.N, win0_3.index t (0 : Fin 3) = t.val / 64 ∧ win0_3.index t (1 : Fin 3) = 0 ∧ win0_3.index t (2 : Fin 3) = 0 := (by decide +kernel : ∀ t : Fin grid0.N, _)
theorem idx_4 : ∀ t : Fin cfg0.N, win0_4.index t (0 : Fin 2) = 0 ∧ win0_4.index t (1 : Fin 2) = 0 := (by decide +kernel : ∀ t : Fin grid0.N, _)
theorem idx_5 : ∀ t : Fin cfg0.N, win0_5.index t (0 : Fin 2) = 0 ∧ win0_5.index t (1 : Fin 2) = 0 := (by decide +kernel : ∀ t : Fin grid0.N, _)
theorem idx_6 : ∀ t : Fin cfg0.N, win0_6.index t (0 : Fin 2) = 0 ∧ win0_6.index t (1 : Fin 2) = 0 := (by decide +kernel : ∀ t : Fin grid0.N, _)
theorem idx_7 : ∀ t : Fin cfg0.N, win0_7.index t (0 : Fin 2) = 0 ∧ win0_7.index t (1 : Fin 2) = 0 := (by decide +kernel : ∀ t : Fin grid0.N, _)
theorem idx_8 : ∀ t : Fin cfg0.N, win0_8.index t (0 : Fin 3) = t.val / 64 ∧ win0_8.index t (1 : Fin 3) = t.val % 64 ∧ win0_8.index t (2 : Fin 3) = 0 := (by decide +kernel : ∀ t : Fin grid0.N, _)
theorem idx_9 : ∀ t : Fin cfg0.N, win0_9.index t (0 : Fin 3) = t.val / 64 ∧ win0_9.index t (1 : Fin 3) = t.val % 64 ∧ win0_9.index t (2 : Fin 3) = 0 := (by decide +kernel : ∀ t : Fin grid0.N, _)

/-! ## The arrays the host prepares -/

theorem V_main_v0 (c : Dev nD) : (V m c main_v0 : S4x1x2048.Idx → EReal) = shapeCast S4x1x2048 (A2 m c) shapeCasts_S4x2048_S4x1x2048 := by
  dsimp only [Gen.V, Gen.hostOps0]; after_results; rfl
theorem V_main_v1 (c : Dev nD) : (V m c main_v1 : S4x1x2048.Idx → EReal) = shapeCast S4x1x2048 (A3 m c) shapeCasts_S4x2048_S4x1x2048 := by
  dsimp only [Gen.V, Gen.hostOps0]; after_results; rfl
theorem V_main_v2 (c : Dev nD) : (V m c main_v2 : S1x2048.Idx → EReal) = shapeCast S1x2048 (A4 m c) shapeCasts_S2048_S1x2048 := by
  dsimp only [Gen.V, Gen.hostOps0]; after_results; rfl
theorem V_main_v3 (c : Dev nD) : (V m c main_v3 : S1x2048.Idx → EReal) = shapeCast S1x2048 (A5 m c) shapeCasts_S2048_S1x2048 := by
  dsimp only [Gen.V, Gen.hostOps0]; after_results; rfl
theorem V_main_v4 (c : Dev nD) : (V m c main_v4 : S1x6144.Idx → EReal) = shapeCast S1x6144 (A7 m c) shapeCasts_S6144_S1x6144 := by
  dsimp only [Gen.V, Gen.hostOps0]; after_results; rfl
theorem V_main_v5 (c : Dev nD) : (V m c main_v5 : S6144x2048.Idx → EReal) = truncf (F := Ideal) .bf16 (A6 m c) bitsLt_bf16_f32 := by
  dsimp only [Gen.V, Gen.hostOps0]; after_results

/-! ## Each loaded block is a restriction of an argument -/

theorem B0_apply (c : Dev nD) (t : Fin cfg0.N) (r : Fin 64) (k : Fin 2048) :
    B0 m c t (ix3 (0 : Fin 1) r k) = A0 m c (ix3 (bOf t) (sOf t r) k) := by
  show V m c main_arg0 (((cfg0.win 0).blk t).view.emb (ix3 (0 : Fin 1) r k)) = _
  rw [V_main_arg0]
  refine congrArg (m ((c : Thread nD τ).loc main_arg0)) ?_
  obtain ⟨e0, e1, e2⟩ := idx_0 t
  funext a; apply Fin.ext
  match a with
  | ⟨0, _⟩ => show win0_0.index t (0 : Fin 3) * 1 + 1 * 0 = t.val / 64; omega
  | ⟨1, _⟩ => show win0_0.index t (1 : Fin 3) * 64 + 1 * r.val = t.val % 64 * 64 + r.val; omega
  | ⟨2, _⟩ => show win0_0.index t (2 : Fin 3) * 2048 + 1 * k.val = k.val; omega

theorem B1_apply (c : Dev nD) (t : Fin cfg0.N) (r : Fin 64) (k : Fin 2048) :
    B1 m c t (ix3 (0 : Fin 1) r k) = A1 m c (ix3 (bOf t) (sOf t r) k) := by
  show V m c main_arg1 (((cfg0.win 1).blk t).view.emb (ix3 (0 : Fin 1) r k)) = _
  rw [V_main_arg1]
  refine congrArg (m ((c : Thread nD τ).loc main_arg1)) ?_
  obtain ⟨e0, e1, e2⟩ := idx_1 t
  funext a; apply Fin.ext
  match a with
  | ⟨0, _⟩ => show win0_1.index t (0 : Fin 3) * 1 + 1 * 0 = t.val / 64; omega
  | ⟨1, _⟩ => show win0_1.index t (1 : Fin 3) * 64 + 1 * r.val = t.val % 64 * 64 + r.val; omega
  | ⟨2, _⟩ => show win0_1.index t (2 : Fin 3) * 2048 + 1 * k.val = k.val; omega

theorem B2_apply (c : Dev nD) (t : Fin cfg0.N) (d : Fin 2048) :
    B2 m c t (ix3 (0 : Fin 1) (0 : Fin 1) d) = A2 m c (ix2 (bOf t) d) := by
  show V m c main_v0 (((cfg0.win 2).blk t).view.emb (ix3 (0 : Fin 1) (0 : Fin 1) d)) = _
  have he : ((cfg0.win 2).blk t).view.emb (ix3 (0 : Fin 1) (0 : Fin 1) d) = ix3 (bOf t) (0 : Fin 1) d := by
    obtain ⟨e0, e1, e2⟩ := idx_2 t
    funext a; apply Fin.ext
    match a with
    | ⟨0, _⟩ => show win0_2.index t (0 : Fin 3) * 1 + 1 * 0 = t.val / 64; omega
    | ⟨1, _⟩ => show win0_2.index t (1 : Fin 3) * 1 + 1 * 0 = 0; omega
    | ⟨2, _⟩ => show win0_2.index t (2 : Fin 3) * 2048 + 1 * d.val = d.val; omega
  rw [he, V_main_v0]
  exact shapeCast_apply _ _ _ (ix2 (bOf t) d) (by
    rw [Shape.rowMajor_val_two, Shape.rowMajor_val_three]
    show (t.val / 64) * 2048 + d.val = ((t.val / 64) * 1 + 0) * 2048 + d.val
    omega)

theorem B3_apply (c : Dev nD) (t : Fin cfg0.N) (d : Fin 2048) :
    B3 m c t (ix3 (0 : Fin 1) (0 : Fin 1) d) = A3 m c (ix2 (bOf t) d) := by
  show V m c main_v1 (((cfg0.win 3).blk t).view.emb (ix3 (0 : Fin 1) (0 : Fin 1) d)) = _
  have he : ((cfg0.win 3).blk t).view.emb (ix3 (0 : Fin 1) (0 : Fin 1) d) = ix3 (bOf t) (0 : Fin 1) d := by
    obtain ⟨e0, e1, e2⟩ := idx_3 t
    funext a; apply Fin.ext
    match a with
    | ⟨0, _⟩ => show win0_3.index t (0 : Fin 3) * 1 + 1 * 0 = t.val / 64; omega
    | ⟨1, _⟩ => show win0_3.index t (1 : Fin 3) * 1 + 1 * 0 = 0; omega
    | ⟨2, _⟩ => show win0_3.index t (2 : Fin 3) * 2048 + 1 * d.val = d.val; omega
  rw [he, V_main_v1]
  exact shapeCast_apply _ _ _ (ix2 (bOf t) d) (by
    rw [Shape.rowMajor_val_two, Shape.rowMajor_val_three]
    show (t.val / 64) * 2048 + d.val = ((t.val / 64) * 1 + 0) * 2048 + d.val
    omega)

theorem B4_apply (c : Dev nD) (t : Fin cfg0.N) (k : Fin 2048) :
    B4 m c t (ix2 (0 : Fin 1) k) = A4 m c (ix1 k) := by
  show V m c main_v2 (((cfg0.win 4).blk t).view.emb (ix2 (0 : Fin 1) k)) = _
  have he : ((cfg0.win 4).blk t).view.emb (ix2 (0 : Fin 1) k) = ix2 (0 : Fin 1) k := by
    obtain ⟨e0, e1⟩ := idx_4 t
    funext a; apply Fin.ext
    match a with
    | ⟨0, _⟩ => show win0_4.index t (0 : Fin 2) * 1 + 1 * 0 = 0; omega
    | ⟨1, _⟩ => show win0_4.index t (1 : Fin 2) * 2048 + 1 * k.val = k.val; omega
  rw [he, V_main_v2]
  exact shapeCast_apply _ _ _ (ix1 k) (by
    rw [Shape.rowMajor_val_one, Shape.rowMajor_val_two]
    show k.val = 0 * 2048 + k.val
    omega)

theorem B5_apply (c : Dev nD) (t : Fin cfg0.N) (k : Fin 2048) :
    B5 m c t (ix2 (0 : Fin 1) k) = A5 m c (ix1 k) := by
  show V m c main_v3 (((cfg0.win 5).blk t).view.emb (ix2 (0 : Fin 1) k)) = _
  have he : ((cfg0.win 5).blk t).view.emb (ix2 (0 : Fin 1) k) = ix2 (0 : Fin 1) k := by
    obtain ⟨e0, e1⟩ := idx_5 t
    funext a; apply Fin.ext
    match a with
    | ⟨0, _⟩ => show win0_5.index t (0 : Fin 2) * 1 + 1 * 0 = 0; omega
    | ⟨1, _⟩ => show win0_5.index t (1 : Fin 2) * 2048 + 1 * k.val = k.val; omega
  rw [he, V_main_v3]
  exact shapeCast_apply _ _ _ (ix1 k) (by
    rw [Shape.rowMajor_val_one, Shape.rowMajor_val_two]
    show k.val = 0 * 2048 + k.val
    omega)

theorem B6_apply (c : Dev nD) (t : Fin cfg0.N) (e : Fin 6144) (k : Fin 2048) :
    B6 m c t (ix2 e k) = A6 m c (ix2 e k) := by
  show V m c main_v5 (((cfg0.win 6).blk t).view.emb (ix2 e k)) = _
  have he : ((cfg0.win 6).blk t).view.emb (ix2 e k) = ix2 e k := by
    obtain ⟨e0, e1⟩ := idx_6 t
    funext a; apply Fin.ext
    match a with
    | ⟨0, _⟩ => show win0_6.index t (0 : Fin 2) * 6144 + 1 * e.val = e.val; omega
    | ⟨1, _⟩ => show win0_6.index t (1 : Fin 2) * 2048 + 1 * k.val = k.val; omega
  rw [he, V_main_v5]
  rfl

theorem B7_apply (c : Dev nD) (t : Fin cfg0.N) (k : Fin 6144) :
    B7 m c t (ix2 (0 : Fin 1) k) = A7 m c (ix1 k) := by
  show V m c main_v4 (((cfg0.win 7).blk t).view.emb (ix2 (0 : Fin 1) k)) = _
  have he : ((cfg0.win 7).blk t).view.emb (ix2 (0 : Fin 1) k) = ix2 (0 : Fin 1) k := by
    obtain ⟨e0, e1⟩ := idx_7 t
    funext a; apply Fin.ext
    match a with
    | ⟨0, _⟩ => show win0_7.index t (0 : Fin 2) * 1 + 1 * 0 = 0; omega
    | ⟨1, _⟩ => show win0_7.index t (1 : Fin 2) * 6144 + 1 * k.val = k.val; omega
  rw [he, V_main_v4]
  exact shapeCast_apply _ _ _ (ix1 k) (by
    rw [Shape.rowMajor_val_one, Shape.rowMajor_val_two]
    show k.val = 0 * 6144 + k.val
    omega)

/-! ## What each point writes back -/

/-- What point `t` writes back to the output array is block `t` of the whole-array function of the arguments. -/
theorem flushed8_eq (c : Dev nD) (t : Fin cfg0.N) :
    (dats m 0 c).flushed 8 t = ((cfg0.win 8).blk t).view.read (Elt Ideal) (Gout (A0 m c) (A1 m c) (A2 m c) (A3 m c) (A4 m c) (A5 m c) (A6 m c) (A7 m c)) := by
  rw [Value.flushed8]
  funext y
  show out0_8 (B0 m c t) (B1 m c t) (B2 m c t) (B3 m c t) (B4 m c t) (B5 m c t) (B6 m c t) (B7 m c t) y = Gout (A0 m c) (A1 m c) (A2 m c) (A3 m c) (A4 m c) (A5 m c) (A6 m c) (A7 m c) (((cfg0.win 8).blk t).view.emb y)
  obtain ⟨z, r, d, rfl⟩ : ∃ (z : Fin 1) (r : Fin 64) (d : Fin 2048), y = ix3 z r d := ⟨y 0, y 1, y 2, eq_ix3 y⟩
  obtain rfl : z = 0 := Subsingleton.elim _ _
  refine (out0_8_apply (B0 m c t) (B1 m c t) (B2 m c t) (B3 m c t) (B4 m c t) (B5 m c t) (B6 m c t) (B7 m c t) r d).trans ?_
  have he : ((cfg0.win 8).blk t).view.emb (ix3 (0 : Fin 1) r d) = ix3 (bOf t) (sOf t r) d := by
    obtain ⟨e0, e1, e2⟩ := idx_8 t
    funext a; apply Fin.ext
    match a with
    | ⟨0, _⟩ => show win0_8.index t (0 : Fin 3) * 1 + 1 * 0 = t.val / 64; omega
    | ⟨1, _⟩ => show win0_8.index t (1 : Fin 3) * 64 + 1 * r.val = t.val % 64 * 64 + r.val; omega
    | ⟨2, _⟩ => show win0_8.index t (2 : Fin 3) * 2048 + 1 * d.val = d.val; omega
  have h0 : rowOf (B0 m c t) r = fun k => A0 m c (ix3 (bOf t) (sOf t r) k) := funext fun k => B0_apply m c t r k
  have h4 : vecOf (B4 m c t) = fun k => A4 m c (ix1 k) := funext fun k => B4_apply m c t k
  have h6 : (fun (e : Fin 6144) (k : Fin 2048) => B6 m c t (ix2 e k)) = fun e k => A6 m c (ix2 e k) :=
    funext fun e => funext fun k => B6_apply m c t e k
  have h7 : (fun (e : Fin 6144) => B7 m c t (ix2 (0 : Fin 1) e)) = fun e => A7 m c (ix1 e) := funext fun e => B7_apply m c t e
  rw [he, h0, h4, h6, h7, B3_apply, B2_apply, B5_apply, B1_apply]
  rfl

/-- What point `t` writes back to the array of next velocities is block `t` of the whole-array function of the arguments. -/
theorem flushed9_eq (c : Dev nD) (t : Fin cfg0.N) :
    (dats m 0 c).flushed 9 t = ((cfg0.win 9).blk t).view.read (Elt Ideal) (Gvn (A0 m c) (A1 m c) (A2 m c) (A3 m c) (A4 m c) (A5 m c) (A6 m c) (A7 m c)) := by
  rw [Value.flushed9]
  funext y
  show out0_9 (B0 m c t) (B1 m c t) (B2 m c t) (B3 m c t) (B4 m c t) (B5 m c t) (B6 m c t) (B7 m c t) y = Gvn (A0 m c) (A1 m c) (A2 m c) (A3 m c) (A4 m c) (A5 m c) (A6 m c) (A7 m c) (((cfg0.win 9).blk t).view.emb y)
  obtain ⟨z, r, d, rfl⟩ : ∃ (z : Fin 1) (r : Fin 64) (d : Fin 2048), y = ix3 z r d := ⟨y 0, y 1, y 2, eq_ix3 y⟩
  obtain rfl : z = 0 := Subsingleton.elim _ _
  refine (out0_9_apply (B0 m c t) (B1 m c t) (B2 m c t) (B3 m c t) (B4 m c t) (B5 m c t) (B6 m c t) (B7 m c t) r d).trans ?_
  have he : ((cfg0.win 9).blk t).view.emb (ix3 (0 : Fin 1) r d) = ix3 (bOf t) (sOf t r) d := by
    obtain ⟨e0, e1, e2⟩ := idx_9 t
    funext a; apply Fin.ext
    match a with
    | ⟨0, _⟩ => show win0_9.index t (0 : Fin 3) * 1 + 1 * 0 = t.val / 64; omega
    | ⟨1, _⟩ => show win0_9.index t (1 : Fin 3) * 64 + 1 * r.val = t.val % 64 * 64 + r.val; omega
    | ⟨2, _⟩ => show win0_9.index t (2 : Fin 3) * 2048 + 1 * d.val = d.val; omega
  have h0 : rowOf (B0 m c t) r = fun k => A0 m c (ix3 (bOf t) (sOf t r) k) := funext fun k => B0_apply m c t r k
  have h4 : vecOf (B4 m c t) = fun k => A4 m c (ix1 k) := funext fun k => B4_apply m c t k
  have h6 : (fun (e : Fin 6144) (k : Fin 2048) => B6 m c t (ix2 e k)) = fun e k => A6 m c (ix2 e k) :=
    funext fun e => funext fun k => B6_apply m c t e k
  have h7 : (fun (e : Fin 6144) => B7 m c t (ix2 (0 : Fin 1) e)) = fun e => A7 m c (ix1 e) := funext fun e => B7_apply m c t e
  rw [he, h0, h4, h6, h7, B3_apply, B2_apply, B5_apply, B1_apply]
  rfl

/-! ## The blocks tile the result arrays -/

/-- An index of the array is in point `t`'s block iff each coordinate is in the block's range on its axis. -/
theorem mem_blk8 (t : Fin cfg0.N) (i : S4x4096x2048.Idx) :
    i ∈ ((cfg0.win 8).blk t).view.set ↔ ∀ a : Fin 3, win0_8.index t a * S1x64x2048.size a ≤ (i a).val ∧ (i a).val < win0_8.index t a * S1x64x2048.size a + S1x64x2048.size a := by
  show i ∈ ((View.whole main_v6_0).slice (win0_8.rect t)).set ↔ _
  rw [View.set_slice_whole, Rect.mem_set_unit]
  exact Iff.rfl

/-- Element `(b, s, d)` lies in the block of point `64 b + s / 64`: the blocks tile the array. -/
theorem cover8 (i : S4x4096x2048.Idx) : ∃ t : Fin cfg0.N, (cfg0.win 8).flush t = true ∧ i ∈ ((cfg0.win 8).blk t).view.set := by
  have hi0 : (i 0).val < 4 := (i 0).isLt
  have hi1 : (i 1).val < 4096 := (i 1).isLt
  have hi2 : (i 2).val < 2048 := (i 2).isLt
  have hN : cfg0.N = 256 := N_0
  refine ⟨⟨(i 0).val * 64 + (i 1).val / 64, by omega⟩, flush0_8 _, ?_⟩
  rw [mem_blk8]
  obtain ⟨e0, e1, e2⟩ := idx_8 ⟨(i 0).val * 64 + (i 1).val / 64, by omega⟩
  intro a
  match a with
  | ⟨0, _⟩ =>
    show win0_8.index _ (0 : Fin 3) * 1 ≤ (i 0).val ∧ (i 0).val < win0_8.index _ (0 : Fin 3) * 1 + 1
    rw [e0]; show ((i 0).val * 64 + (i 1).val / 64) / 64 * 1 ≤ (i 0).val ∧ (i 0).val < ((i 0).val * 64 + (i 1).val / 64) / 64 * 1 + 1
    omega
  | ⟨1, _⟩ =>
    show win0_8.index _ (1 : Fin 3) * 64 ≤ (i 1).val ∧ (i 1).val < win0_8.index _ (1 : Fin 3) * 64 + 64
    rw [e1]; show ((i 0).val * 64 + (i 1).val / 64) % 64 * 64 ≤ (i 1).val ∧ (i 1).val < ((i 0).val * 64 + (i 1).val / 64) % 64 * 64 + 64
    omega
  | ⟨2, _⟩ =>
    show win0_8.index _ (2 : Fin 3) * 2048 ≤ (i 2).val ∧ (i 2).val < win0_8.index _ (2 : Fin 3) * 2048 + 2048
    rw [e2]; omega

/-- An index of the array is in point `t`'s block iff each coordinate is in the block's range on its axis. -/
theorem mem_blk9 (t : Fin cfg0.N) (i : S4x4096x2048.Idx) :
    i ∈ ((cfg0.win 9).blk t).view.set ↔ ∀ a : Fin 3, win0_9.index t a * S1x64x2048.size a ≤ (i a).val ∧ (i a).val < win0_9.index t a * S1x64x2048.size a + S1x64x2048.size a := by
  show i ∈ ((View.whole main_v6_1).slice (win0_9.rect t)).set ↔ _
  rw [View.set_slice_whole, Rect.mem_set_unit]
  exact Iff.rfl

/-- Element `(b, s, d)` lies in the block of point `64 b + s / 64`: the blocks tile the array. -/
theorem cover9 (i : S4x4096x2048.Idx) : ∃ t : Fin cfg0.N, (cfg0.win 9).flush t = true ∧ i ∈ ((cfg0.win 9).blk t).view.set := by
  have hi0 : (i 0).val < 4 := (i 0).isLt
  have hi1 : (i 1).val < 4096 := (i 1).isLt
  have hi2 : (i 2).val < 2048 := (i 2).isLt
  have hN : cfg0.N = 256 := N_0
  refine ⟨⟨(i 0).val * 64 + (i 1).val / 64, by omega⟩, flush0_9 _, ?_⟩
  rw [mem_blk9]
  obtain ⟨e0, e1, e2⟩ := idx_9 ⟨(i 0).val * 64 + (i 1).val / 64, by omega⟩
  intro a
  match a with
  | ⟨0, _⟩ =>
    show win0_9.index _ (0 : Fin 3) * 1 ≤ (i 0).val ∧ (i 0).val < win0_9.index _ (0 : Fin 3) * 1 + 1
    rw [e0]; show ((i 0).val * 64 + (i 1).val / 64) / 64 * 1 ≤ (i 0).val ∧ (i 0).val < ((i 0).val * 64 + (i 1).val / 64) / 64 * 1 + 1
    omega
  | ⟨1, _⟩ =>
    show win0_9.index _ (1 : Fin 3) * 64 ≤ (i 1).val ∧ (i 1).val < win0_9.index _ (1 : Fin 3) * 64 + 64
    rw [e1]; show ((i 0).val * 64 + (i 1).val / 64) % 64 * 64 ≤ (i 1).val ∧ (i 1).val < ((i 0).val * 64 + (i 1).val / 64) % 64 * 64 + 64
    omega
  | ⟨2, _⟩ =>
    show win0_9.index _ (2 : Fin 3) * 2048 ≤ (i 2).val ∧ (i 2).val < win0_9.index _ (2 : Fin 3) * 2048 + 2048
    rw [e2]; omega

/-! ## The arrays after the run -/

theorem final8 (c : Dev nD) : (dats m 0 c).arrAt 8 cfg0.N = Gout (A0 m c) (A1 m c) (A2 m c) (A3 m c) (A4 m c) (A5 m c) (A6 m c) (A7 m c) :=
  (dats m 0 c).arrAt_eq_of_cover 8 (Gout (A0 m c) (A1 m c) (A2 m c) (A3 m c) (A4 m c) (A5 m c) (A6 m c) (A7 m c)) (fun t _ => flushed8_eq m c t) cover8

theorem final9 (c : Dev nD) : (dats m 0 c).arrAt 9 cfg0.N = Gvn (A0 m c) (A1 m c) (A2 m c) (A3 m c) (A4 m c) (A5 m c) (A6 m c) (A7 m c) :=
  (dats m 0 c).arrAt_eq_of_cover 9 (Gvn (A0 m c) (A1 m c) (A2 m c) (A3 m c) (A4 m c) (A5 m c) (A6 m c) (A7 m c)) (fun t _ => flushed9_eq m c t) cover9

/-- The kernel's run: every weakly fair execution ends with the two result arrays at `Gout` and `Gvn` of the arguments,
    the arguments unchanged. -/
theorem run : θ_run defs (onTc (τ := τ) (main (F := Ideal))) ⟨m, fun _ => 0, ρ⟩ fun r => ∀ c : Dev nD,
      r.2.mem ((c : Thread nD τ).loc main_v6_0) = Gout (A0 m c) (A1 m c) (A2 m c) (A3 m c) (A4 m c) (A5 m c) (A6 m c) (A7 m c)
      ∧ r.2.mem ((c : Thread nD τ).loc main_v6_1) = Gvn (A0 m c) (A1 m c) (A2 m c) (A3 m c) (A4 m c) (A5 m c) (A6 m c) (A7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Value.run_blocks m ρ)

end Cert.KernelIdeal.ArrValue

end
-- ==== Proof.RefValue.lean ====
/-
  The reference, element by element.

  Each stage of the reference at an index is read from its operands at an index; composed, the two results at
  `(b, s, d)` are `outAt` and `vnextAt` of row `(b, s)` of the activations, with the batch entry's `scale` and `shift`:
  the sum of squares of the row (a sum into a zero start), its reciprocal root-mean-square, the normalised row, the
  einsum with the weights as a sum over the feature axis plus the bias, its three bands through the written-out sigmoid
  and the `logaddexp` form of softplus, and the AdaLN and residual arithmetic.
-/
import proofs.«153802_j39926015984295_1_alg».proof.Proof.Gen.ReferenceIdeal.Read
import proofs.«153802_j39926015984295_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Robo

variable (x0 x1 : (⟨S4x4096x2048, .f32⟩ : BufTy).Contents (Elt Ideal)) (x2 x3 : (⟨S4x2048, .f32⟩ : BufTy).Contents (Elt Ideal))
  (x4 x5 : (⟨S2048, .f32⟩ : BufTy).Contents (Elt Ideal)) (x6 : (⟨S6144x2048, .f32⟩ : BufTy).Contents (Elt Ideal))
  (x7 : (⟨S6144, .f32⟩ : BufTy).Contents (Elt Ideal))

/-- Row `(b, s)` of the activations. -/
abbrev rowAt (b : Fin 4) (s : Fin 4096) : Fin 2048 → EReal := fun k => x0 (ix3 b s k)
/-- A per-feature parameter. -/
abbrev vec1 (p : (⟨S2048, .f32⟩ : BufTy).Contents (Elt Ideal)) : Fin 2048 → EReal := fun k => p (ix1 k)

/-- The row sum of squares. -/
theorem v1_eq (b : Fin 4) (s : Fin 4096) : val_main_v1 (F := Ideal) x0 (ix2 b s) = sumsq (rowAt x0 b s) := by
  rw [val_main_v1_apply]
  show Ideal.ofBits .f32 0x00000000#32 + ∑ k : Fin 2048, x0 (idx_main_v1 (ix2 b s) k) * x0 (idx_main_v1 (ix2 b s) k) = _
  rw [Ideal.ofBits_zero_f32, zero_add]
  unfold sumsq
  refine Finset.sum_congr rfl fun k _ => ?_
  have h : idx_main_v1 (ix2 b s) k = ix3 b s k :=
    funext fun a => Fin.ext (by match a with | ⟨0, _⟩ => rfl | ⟨1, _⟩ => rfl | ⟨2, _⟩ => rfl)
  rw [h]

/-- The reciprocal root-mean-square of a row. -/
theorem v7_eq (b : Fin 4) (s : Fin 4096) : val_main_v7 (F := Ideal) x0 (ix3 b s (0 : Fin 1)) = rstd (rowAt x0 b s) := by
  rw [val_main_v7_apply, val_main_v6_apply, val_main_v4_apply, val_main_v2_apply, val_main_v3_apply, val_main_v5_apply,
    val_main_cst_0_apply, val_main_cst_1_apply]
  have h : idx_main_v2 (ix3 b s (0 : Fin 1)) = ix2 b s :=
    funext fun a => Fin.ext (by match a with | ⟨0, _⟩ => rfl | ⟨1, _⟩ => rfl)
  rw [h, v1_eq]
  rfl

/-- The normalised, weighted row. -/
theorem v12_eq (b : Fin 4) (s : Fin 4096) (d : Fin 2048) :
    val_main_v12 (F := Ideal) x0 x4 (ix3 b s d) = xnorm (rowAt x0 b s) (vec1 x4) d := by
  rw [val_main_v12_apply, val_main_v9_apply, val_main_v8_apply, val_main_v11_apply, val_main_v10_apply]
  have h8 : idx_main_v8 (ix3 b s d) = ix3 b s (0 : Fin 1) :=
    funext fun a => Fin.ext (by match a with | ⟨0, _⟩ => rfl | ⟨1, _⟩ => rfl | ⟨2, _⟩ => rfl)
  have h10 : idx_main_v10 (idx_main_v11 (ix3 b s d)) = ix1 d :=
    funext fun a => Fin.ext (by match a with | ⟨0, _⟩ => rfl)
  rw [h8, h10, v7_eq]
  rfl

/-- The controller's feature `e` for row `(b, s)`. -/
theorem v16_eq (b : Fin 4) (s : Fin 4096) (e : Fin 6144) :
    val_main_v16 (F := Ideal) x0 x4 x6 x7 (ix3 b s e)
      = ctrl (rowAt x0 b s) (vec1 x4) (fun k => x6 (ix2 e k)) (x7 (ix1 e)) := by
  rw [val_main_v16_apply, val_main_v13_apply, val_main_v15_apply, val_main_v14_apply]
  have h14 : idx_main_v14 (idx_main_v15 (ix3 b s e)) = ix1 e :=
    funext fun a => Fin.ext (by match a with | ⟨0, _⟩ => rfl)
  rw [h14]
  unfold ctrl
  show (∑ k : Fin 2048, val_main_v12 (F := Ideal) x0 x4 (lidx_main_v13 (ix3 b s e) k) * x6 (ridx_main_v13 (ix3 b s e) k)) + x7 (ix1 e) = _
  refine congrArg (· + x7 (ix1 e)) (Finset.sum_congr rfl fun k _ => ?_)
  have hl : lidx_main_v13 (ix3 b s e) k = ix3 b s k :=
    funext fun a => Fin.ext (by match a with | ⟨0, _⟩ => rfl | ⟨1, _⟩ => rfl | ⟨2, _⟩ => rfl)
  have hr : ridx_main_v13 (ix3 b s e) k = ix2 e k :=
    funext fun a => Fin.ext (by match a with | ⟨0, _⟩ => rfl | ⟨1, _⟩ => rfl)
  rw [hl, hr, v12_eq]

/-- The three bands of the controller that element `(b, s, d)` reads. -/
theorem v17_eq (b : Fin 4) (s : Fin 4096) (d : Fin 2048) :
    val_main_v17 (F := Ideal) x0 x4 x6 x7 (ix3 b s d)
      = ctrl (rowAt x0 b s) (vec1 x4) (fun k => x6 (ix2 (band0 d) k)) (x7 (ix1 (band0 d))) := by
  rw [val_main_v17_apply]
  have h : idx_main_v17 (ix3 b s d) = ix3 b s (band0 d) :=
    funext fun a => Fin.ext (by match a with | ⟨0, _⟩ => rfl | ⟨1, _⟩ => rfl | ⟨2, _⟩ => rfl)
  rw [h, v16_eq]
theorem v18_eq (b : Fin 4) (s : Fin 4096) (d : Fin 2048) :
    val_main_v18 (F := Ideal) x0 x4 x6 x7 (ix3 b s d)
      = ctrl (rowAt x0 b s) (vec1 x4) (fun k => x6 (ix2 (band1 d) k)) (x7 (ix1 (band1 d))) := by
  rw [val_main_v18_apply]
  have h : idx_main_v18 (ix3 b s d) = ix3 b s (band1 d) :=
    funext fun a => Fin.ext (by match a with | ⟨0, _⟩ => rfl | ⟨1, _⟩ => rfl | ⟨2, _⟩ => exact Nat.add_comm _ _)
  rw [h, v16_eq]
theorem v19_eq (b : Fin 4) (s : Fin 4096) (d : Fin 2048) :
    val_main_v19 (F := Ideal) x0 x4 x6 x7 (ix3 b s d)
      = ctrl (rowAt x0 b s) (vec1 x4) (fun k => x6 (ix2 (band2 d) k)) (x7 (ix1 (band2 d))) := by
  rw [val_main_v19_apply]
  have h : idx_main_v19 (ix3 b s d) = ix3 b s (band2 d) :=
    funext fun a => Fin.ext (by match a with | ⟨0, _⟩ => rfl | ⟨1, _⟩ => rfl | ⟨2, _⟩ => exact Nat.add_comm _ _)
  rw [h, v16_eq]

/-- The gate α: the written-out sigmoid of band 0. -/
theorem v25_eq (b : Fin 4) (s : Fin 4096) (d : Fin 2048) :
    val_main_v25 (F := Ideal) x0 x4 x6 x7 (ix3 b s d)
      = Ideal.logistic (ctrl (rowAt x0 b s) (vec1 x4) (fun k => x6 (ix2 (band0 d) k)) (x7 (ix1 (band0 d)))) := by
  rw [val_main_v25_apply, val_main_v24_apply, val_main_cst_3_apply, val_main_v23_apply, val_main_v22_apply, val_main_cst_2_apply,
    val_main_v21_apply, val_main_v20_apply, v17_eq]
  exact logistic_spelled _

/-- The gate γ: the written-out sigmoid of band 2. -/
theorem v32_eq (b : Fin 4) (s : Fin 4096) (d : Fin 2048) :
    val_main_v32 (F := Ideal) x0 x4 x6 x7 (ix3 b s d)
      = Ideal.logistic (ctrl (rowAt x0 b s) (vec1 x4) (fun k => x6 (ix2 (band2 d) k)) (x7 (ix1 (band2 d)))) := by
  rw [val_main_v32_apply, val_main_v31_apply, val_main_cst_5_apply, val_main_v30_apply, val_main_v29_apply, val_main_cst_4_apply,
    val_main_v28_apply, val_main_v27_apply, v19_eq]
  exact logistic_spelled _

/-- The gate β: `logaddexp(·, 0)` of band 1. -/
theorem v26_eq (b : Fin 4) (s : Fin 4096) (d : Fin 2048) :
    val_main_v26 (F := Ideal) x0 x4 x6 x7 (ix3 b s d)
      = softplus (ctrl (rowAt x0 b s) (vec1 x4) (fun k => x6 (ix2 (band1 d) k)) (x7 (ix1 (band1 d)))) := by
  rw [val_main_v26_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply, v18_eq]
  exact softplus_neg _

/-- AdaLN of the normalised row with the batch entry's scale and shift. -/
theorem v40_eq (b : Fin 4) (s : Fin 4096) (d : Fin 2048) :
    val_main_v40 (F := Ideal) x0 x2 x3 x4 (ix3 b s d)
      = adaln (xnorm (rowAt x0 b s) (vec1 x4) d) (x3 (ix2 b d)) (x2 (ix2 b d)) := by
  rw [val_main_v40_apply, val_main_v37_apply, val_main_v36_apply, val_main_v35_apply, val_main_v34_apply, val_main_cst_6_apply,
    val_main_v33_apply, val_main_v39_apply, val_main_v38_apply, v12_eq]
  have h33 : idx_main_v33 (idx_main_v36 (ix3 b s d)) = ix2 b d :=
    funext fun a => Fin.ext (by match a with | ⟨0, _⟩ => rfl | ⟨1, _⟩ => rfl)
  have h38 : idx_main_v38 (idx_main_v39 (ix3 b s d)) = ix2 b d :=
    funext fun a => Fin.ext (by match a with | ⟨0, _⟩ => rfl | ⟨1, _⟩ => rfl)
  rw [h33, h38]
  rfl

/-- The reference's second result, the next velocity, at `(b, s, d)`. -/
theorem v46_eq (b : Fin 4) (s : Fin 4096) (d : Fin 2048) :
    val_main_v46 (F := Ideal) x0 x1 x2 x3 x4 x5 x6 x7 (ix3 b s d)
      = vnextAt (rowAt x0 b s) (vec1 x4) (fun e k => x6 (ix2 e k)) (fun e => x7 (ix1 e))
          (x3 (ix2 b d)) (x2 (ix2 b d)) (x5 (ix1 d)) (x1 (ix3 b s d)) d := by
  rw [val_main_v46_apply, val_main_v44_apply, val_main_v45_apply, val_main_v43_apply, val_main_v42_apply, val_main_v41_apply,
    v25_eq, v26_eq, v40_eq]
  have h41 : idx_main_v41 (idx_main_v42 (ix3 b s d)) = ix1 d :=
    funext fun a => Fin.ext (by match a with | ⟨0, _⟩ => rfl)
  rw [h41]
  rfl

/-- The reference's first result, the output, at `(b, s, d)`. -/
theorem v51_eq (b : Fin 4) (s : Fin 4096) (d : Fin 2048) :
    val_main_v51 (F := Ideal) x0 x1 x2 x3 x4 x5 x6 x7 (ix3 b s d)
      = outAt (rowAt x0 b s) (vec1 x4) (fun e k => x6 (ix2 e k)) (fun e => x7 (ix1 e))
          (x3 (ix2 b d)) (x2 (ix2 b d)) (x5 (ix1 d)) (x1 (ix3 b s d)) d := by
  rw [val_main_v51_apply, val_main_v50_apply, val_main_v49_apply, val_main_v48_apply, val_main_v47_apply, val_main_cst_7_apply,
    v32_eq, v46_eq, v40_eq]
  rfl

/-- The reference's results are the whole-array functions of the arguments. -/
theorem v46_is_Gvn : val_main_v46 (F := Ideal) x0 x1 x2 x3 x4 x5 x6 x7 = Gvn x0 x1 x2 x3 x4 x5 x6 x7 := by
  funext i
  obtain ⟨b, s, d, rfl⟩ : ∃ (b : Fin 4) (s : Fin 4096) (d : Fin 2048), i = ix3 b s d := ⟨i 0, i 1, i 2, eq_ix3 i⟩
  exact v46_eq x0 x1 x2 x3 x4 x5 x6 x7 b s d

theorem v51_is_Gout : val_main_v51 (F := Ideal) x0 x1 x2 x3 x4 x5 x6 x7 = Gout x0 x1 x2 x3 x4 x5 x6 x7 := by
  funext i
  obtain ⟨b, s, d, rfl⟩ : ∃ (b : Fin 4) (s : Fin 4096) (d : Fin 2048), i = ix3 b s d := ⟨i 0, i 1, i 2, eq_ix3 i⟩
  exact v51_eq x0 x1 x2 x3 x4 x5 x6 x7 b s d

end Cert.ReferenceIdeal.RefValue

end
-- ==== Proof.lean ====
/-
  The layer computes, for each row of 2048 features: the RMS-normalised row `xn = x · (Σ x² / 2048 + ε)^(-1/2) · w`; a
  controller `ctrl = xn · Wᵀ + b` of 6144 features read as three gates; AdaLN `a = xn · (1 + scale) + shift`; the next
  velocity `v' = σ(ctrl₀) · v − softplus(ctrl₁) · (a − μ)`; and the output `x + (a + 0.1 · σ(ctrl₂) · v')`.

  The kernel does this block by block — 64 rows of one batch entry per grid point, the weights resident — with the
  matrix unit contracting the feature axis of both operands into a zero accumulator, a lane sum for the mean of squares,
  the logistic function as one operation, and softplus as `logaddexp(·, 0)`. The reference does it on whole arrays, with an
  einsum, a host sum, the sigmoid written out as `1 / (1 + e^{-z})`, and the same `logaddexp`. On the extended reals the
  changes of float format are the identity, the matrix product and the einsum are the same finite sum, the two sums of
  squares are the same sum, the written-out sigmoid is the logistic function, and `logaddexp`'s guard `d ≠ d` never
  holds, so both programs end with the two result arrays at ONE pair of functions of the eight arguments
  (`Cert.Robo.Gout`, `Cert.Robo.Gvn`: Proof/Spec.lean). No law used needs the inputs to be finite.

  Proof/KernelBlock.lean reads a block of the kernel element by element; Proof/KernelArray.lean identifies each loaded
  block with a restriction of an argument and tiles the result arrays with the written blocks; Proof/RefValue.lean
  reads the reference element by element. The frames are the generated ones; the idealization rewrote nothing, so
  `preserves` has nothing to state.
-/
import proofs.«153802_j39926015984295_1_alg».proof.Defs
import proofs.«153802_j39926015984295_1_alg».proof.Proof.Gen.Kernel
import proofs.«153802_j39926015984295_1_alg».proof.Proof.Gen.Kernel.Skeleton
import proofs.«153802_j39926015984295_1_alg».proof.Proof.Gen.Kernel.Launch
import proofs.«153802_j39926015984295_1_alg».proof.Proof.Gen.Kernel.Points
import proofs.«153802_j39926015984295_1_alg».proof.Proof.Gen.Kernel.Frame
import proofs.«153802_j39926015984295_1_alg».proof.Proof.Gen.KernelIdeal
import proofs.«153802_j39926015984295_1_alg».proof.Proof.Gen.KernelIdeal.Skeleton
import proofs.«153802_j39926015984295_1_alg».proof.Proof.Gen.KernelIdeal.Launch
import proofs.«153802_j39926015984295_1_alg».proof.Proof.Gen.KernelIdeal.Points
import proofs.«153802_j39926015984295_1_alg».proof.Proof.Gen.KernelIdeal.Frame
import proofs.«153802_j39926015984295_1_alg».proof.Proof.Gen.ReferenceIdeal
import proofs.«153802_j39926015984295_1_alg».proof.Proof.Gen.KernelIdeal.Value
import proofs.«153802_j39926015984295_1_alg».proof.Proof.Gen.ReferenceIdeal.Run
import proofs.«153802_j39926015984295_1_alg».proof.Proof.Gen.ReferenceIdeal.Read
import proofs.«153802_j39926015984295_1_alg».proof.Proof.Gen.Pre_finite_inputs
import proofs.«153802_j39926015984295_1_alg».proof.Proof.KernelArray
import proofs.«153802_j39926015984295_1_alg».proof.Proof.RefValue
import Idealize.ShloMosaic.Adequacy
import Idealize.ShloMosaic.Init

noncomputable section

namespace Cert.Proof

open Idealize.ShloMosaic Idealize.SL.Sem Cert.Robo

/-- The word-level kernel terminates, faults nowhere and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the output at `Gout` and the next velocity at `Gvn` of arguments that agree. -/
theorem algebraic : Cert.algebraic_KernelIdeal_ReferenceIdeal := by
  intro m ρ m' ρ' _ hagree
  refine ⟨fun c => Gout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Gvn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.ArrValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v51_eq, Cert.ReferenceIdeal.RefValue.v51_is_Gout,
      (hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [Cert.ReferenceIdeal.Read.val_main_v46_eq, Cert.ReferenceIdeal.RefValue.v46_is_Gvn,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
